-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S8192x1024 : Shape := ⟨2, ![8192, 1024]⟩
abbrev S_ : Shape := ⟨0, ![]⟩

abbrev nBuf : Space → Nat
  | .hbm => 2
  | .vmem => 1
  | .smem => 0
  | _ => 0

abbrev bufTy : (tb : Table) → Fin (tcTables nBuf tb) → BufTy
  | .hbm, ⟨0, _⟩ => ⟨S8192x2048, .f32⟩
  | .hbm, ⟨1, _⟩ => ⟨S16384x1024, .f32⟩
  | .local _ .vmem, ⟨0, _⟩ => ⟨S8192x1024, .f32⟩
  | _, _ => ⟨S8192x2048, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v18 : BitVec 32 := Scalar.muli v2 c8192_i32
  let c0_i32_12 : BitVec 32 := 0#32
  ![v18.toNat, 0]
def k0_off2 (d0 : Dev nD) : Fin 2 → Nat :=
  let c0_i32_13 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c1024_i32 : BitVec 32 := 1024#32
  let v17 : BitVec 32 := Scalar.muli v9 c1024_i32
  ![0, v17.toNat]
def k0_dev2 (d0 : Dev nD) : Nat :=
  let c0_i32_9 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8 : BitVec 32 := 8#32
  let v19 : BitVec 32 := Scalar.muli v9 c8_i32_8
  let v20 : BitVec 32 := Scalar.addi c0_i32_9 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_10 : BitVec 32 := 4#32
  let v21 : BitVec 32 := Scalar.muli v5 c4_i32_10
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v23 : BitVec 32 := Scalar.muli v8 c1_i32_11
  let v24 : BitVec 32 := Scalar.addi v22 v23
  v24.toNat
def k0_off3 (d0 : Dev nD) : Fin 2 → Nat :=
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_14 : BitVec 32 := 1024#32
  let v27 : BitVec 32 := Scalar.muli v2 c1024_i32_14
  ![0, v27.toNat]

class Facts₀ : Prop where
  hamt_1 : (1#32 : BitVec 32).msb = false
  hcc0_scratch1 : 0 + S_.numel ≤ 3
  hcc0_scratch2 : 1 + S_.numel ≤ 3
  hcc0_scratch3 : 2 + S_.numel ≤ 3
  k0_dev1_lt : ∀ d0 : Dev nD, (k0_dev1 d0) < nD
  k0_off1_inb : ∀ d0 : Dev nD, ∀ a, (k0_off1 d0) a + S8192x1024.size a ≤ S16384x1024.size a
  k0_off2_inb : ∀ d0 : Dev nD, ∀ a, (k0_off2 d0) a + S8192x1024.size a ≤ S8192x2048.size a
  k0_dev2_lt : ∀ d0 : Dev nD, (k0_dev2 d0) < nD
  k0_off3_inb : ∀ d0 : Dev nD, ∀ a, (k0_off3 d0) a + S8192x1024.size a ≤ S8192x2048.size a

variable [Facts₀]

abbrev cc0_scratch1 : DmaSems sig S_ := SemArray.consecutive 0 S_ hcc0_scratch1
abbrev cc0_scratch2 : DmaSems sig S_ := SemArray.consecutive 1 S_ hcc0_scratch2
abbrev cc0_scratch3 : DmaSems sig S_ := SemArray.consecutive 2 S_ hcc0_scratch3

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 1
  | .vmem => 0
  | .smem => 0
  | _ => 0

abbrev bufTy : (tb : Table) → Fin (tcTables nBuf tb) → BufTy
  | .hbm, ⟨0, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Basics.lean ====
/-
  The exchange's vocabulary on the mesh x=2, y=2, z=4 (device c at (c / 8, c / 4 % 2, c % 4)): every device's partner is the
  device whose x coordinate is flipped, c ± 8. Device c holds rows [8192·x, 8192·x + 8192) of the 16384×2048 array and must end
  holding columns [1024·x, 1024·x + 1024) of it. Its own rows of those columns it moves through VMEM into rows
  [8192·x, …) of its result; the partner's rows of those columns arrive from the partner into the other half of the result.
  Here: the partner map, the views, the four semaphore cells of a device, the contents every landing leaves, and the
  schedule of the cells' rounds with its tables.
-/
import proofs.«900636_g7700000000000637_dist_a2a_v7x_xyz2x2x4_x_m8192_n1024_f32_1_alg».proof.Proof.Gen.KernelIdeal
import proofs.«900636_g7700000000000637_dist_a2a_v7x_xyz2x2x4_x_m8192_n1024_f32_1_alg».proof.Proof.Gen.KernelIdeal.Skeleton
import proofs.«900636_g7700000000000637_dist_a2a_v7x_xyz2x2x4_x_m8192_n1024_f32_1_alg».proof.Proof.Gen.KernelIdeal.Launch
import proofs.«900636_g7700000000000637_dist_a2a_v7x_xyz2x2x4_x_m8192_n1024_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner -/

/-- The device with the x coordinate flipped. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- Both device chains of the kernel (the signal's and the transfer's) name the partner. -/
theorem dev1_eq (c : Dev nD) : (⟨k0_dev1 c, k0_dev1_lt c⟩ : Dev nD) = peer c := by
  apply Fin.ext; show k0_dev1 c = (c.val + 8) % 16; rw [k0_dev1_eq]; revert c; decide
theorem dev2_eq (c : Dev nD) : (⟨k0_dev2 c, k0_dev2_lt c⟩ : Dev nD) = peer c := by
  apply Fin.ext; show k0_dev2 c = (c.val + 8) % 16; rw [k0_dev2_eq]; revert c; decide

def flip : Dev nD ≃ Dev nD := ⟨peer, peer, peer_peer, peer_peer⟩

/-! ## The views -/

abbrev aM : Memref sig .tc .hbm S8192x2048 .f32 := Memref.whole main_arg0
abbrev oM : Memref sig .tc .hbm S16384x1024 .f32 := Memref.whole main_v1
abbrev vM : Memref sig .tc .vmem S8192x1024 .f32 := Memref.whole cc0_scratch0

/-- The partner's columns of device c's rows: what c sends. -/
abbrev srcR (c : Dev nD) : Memref sig .tc .hbm S8192x1024 .f32 :=
  aM.slice (Rect.unit (s := S8192x2048) (k0_off2 c) S8192x1024.size (k0_off2_inb c)) (fun _ => rfl)
/-- Device c's own columns of its rows: what c keeps. -/
abbrev srcL (c : Dev nD) : Memref sig .tc .hbm S8192x1024 .f32 :=
  aM.slice (Rect.unit (s := S8192x2048) (k0_off3 c) S8192x1024.size (k0_off3_inb c)) (fun _ => rfl)
/-- Rows [8192·x(c), 8192·x(c) + 8192) of a result: where c's own rows go on c, and where c's rows land on its partner. -/
abbrev dstM (c : Dev nD) : Memref sig .tc .hbm S8192x1024 .f32 :=
  oM.slice (Rect.unit (s := S16384x1024) (k0_off1 c) S8192x1024.size (k0_off1_inb c)) (fun _ => rfl)

/-! ## The cells -/

abbrev barS : Sem sig := (SemArray.scalar (sig.barrier 0 rfl) : Sems sig S_).sem
abbrev locS : DmaSems sig S_ := cc0_scratch1
abbrev sendS : DmaSems sig S_ := cc0_scratch2
abbrev recvS : DmaSems sig S_ := cc0_scratch3

abbrev barCell (c : Dev nD) : GSem nD τ sig := ((c : Thread nD τ), .reg barS)
abbrev locCell (c : Dev nD) : GSem nD τ sig := ((c : Thread nD τ), .dma locS.sem)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them; -/
abbrev osem : Fin 3 → SemLoc sig := fun | 0 => .dma locS.sem | 1 => .dma sendS.sem | 2 => .dma recvS.sem
/-- all four of a device's cells. -/
abbrev csem : Fin 4 → SemLoc sig := fun | 0 => .reg barS | 1 => .dma locS.sem | 2 => .dma sendS.sem | 3 => .dma recvS.sem
abbrev kcell (ck : Dev nD × Fin 4) : GSem nD τ sig := ((ck.1 : Thread nD τ), csem ck.2)

/-- What one transfer of an 8192×1024 block credits. -/
def N : ℕ := (vM : Memref sig .tc .vmem S8192x1024 .f32).view.dmaCredit
theorem N_pos : 0 < N := View.dmaCredit_pos _ (by decide)
/-- Every 8192×1024 view of a TensorCore buffer credits that much, whichever buffer it is a view of. -/
theorem amount_eq_N {sp : Space} (v : Memref sig .tc sp S8192x1024 .f32) (s : DmaSem sig) : v.view.amount (.dma s) = N := rfl
theorem credit_eq_N {sp : Space} (v : Memref sig .tc sp S8192x1024 .f32) : v.view.dmaCredit = N := rfl

/-! ## Contents -/

/-- Device c's block of the argument, as launched. -/
def xA (c : Dev nD) : Buf (Elt F) ((c : Thread nD τ).loc main_arg0) := m ((c : Thread nD τ).loc main_arg0)

/-- What the copy down leaves in VMEM: c's own columns of its rows. -/
def vLanded (c : Dev nD) : (cc0_scratch0 : Ref sig .tc).ty.Contents (Elt F) := (srcL c).view.read (Elt F) (xA m c)

/-- Device c's result after the exchange: the partner's rows written where the partner addresses them, c's own
    where c does (the two row ranges tile the result, so nothing of the launch contents is left). -/
def outFinal (c : Dev nD) : Buf (Elt F) ((c : Thread nD τ).loc main_v1) :=
  (dstM c).view.write (Elt F)
    ((dstM (peer c)).view.write (Elt F) (m ((c : Thread nD τ).loc main_v1)) ((srcR (peer c)).view.read (Elt F) (xA m (peer c))) Finset.univ)
    ((vM : Memref sig .tc .vmem S8192x1024 .f32).view.read (Elt F) (vLanded m c)) Finset.univ

/-- The points-to of a view's elements on a device's buffer. -/
abbrev pts {sp : Space} (v : Memref sig .tc sp S8192x1024 .f32) (t : Dev nD) (f : Buf (Elt F) (v.view.loc (t : Thread nD τ))) : sProp 𝕄 :=
  v.view.loc (t : Thread nD τ) ↦[v.view.set]{fullShare} f

end Cert.KernelIdeal.A2A

end
-- ==== Proof.Proto.lean ====
/-
  The schedule of the exchange's semaphore cells: which duties each round of each cell has, how much each pays, and what
  each hands the cell's owner.
-/
import proofs.«900636_g7700000000000637_dist_a2a_v7x_xyz2x2x4_x_m8192_n1024_f32_1_alg».proof.Proof.Basics

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule

  Each device's barrier cell has one duty, its partner's signal; what comes with it is the partner's half of ITS result
  that this device's transfer will write, and that the partner stands at round 0 of its receive cell. The send cell's one
  duty returns the sent columns, the receive cell's delivers the landed half of the result. The local cell serves two
  copies one after the other, so it has two rounds: the copy down delivers VMEM and returns the kept columns, the copy up
  delivers the device's own half of the result and returns VMEM. -/

/-- Device c's barrier payload: on its partner, the rows c's transfer writes, and the partner at round 0 of its receive cell. -/
def barPay (c : Dev nD) : sProp 𝕄 :=
  iprop((∃ f, pts (F := F) (dstM c) (peer c) f) ∗ reached ER (recvCell (peer c)) 0)
def recvPay (c : Dev nD) : sProp 𝕄 := pts (dstM (peer c)) c (outFinal m c)
def sendPay (c : Dev nD) : sProp 𝕄 := pts (srcR c) c (xA m c)
def downPay (c : Dev nD) : sProp 𝕄 := iprop(pts vM c (vLanded m c) ∗ pts (srcL c) c (xA m c))
def upPay (c : Dev nD) : sProp 𝕄 := iprop(pts (dstM c) c (outFinal m c) ∗ pts vM c (vLanded m c))

def sched : Rounds.Schedule (GSem nD τ sig) Unit 𝕄 where
  duties g r :=
    if g.1.2 = .tc ∧ ((r = 0 ∧ (g.2 = .reg barS ∨ g.2 = .dma sendS.sem ∨ g.2 = .dma recvS.sem)) ∨ (r ≤ 1 ∧ g.2 = .dma locS.sem))
    then {()} else ∅
  unitless _ := False
  amount g _ _ := if g.2 = .reg barS then 1 else N
  payload g r _ :=
    if g.2 = .reg barS then barPay g.1.1
    else if g.2 = .dma recvS.sem then recvPay m g.1.1
    else if g.2 = .dma sendS.sem then sendPay m g.1.1
    else if g.2 = .dma locS.sem then (if r = 0 then downPay m g.1.1 else upPay m g.1.1)
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = .dma recvS.sem then recvPay m g.1.1
    else if g.2 = .dma sendS.sem then sendPay m g.1.1
    else if g.2 = .dma locS.sem then (if r = 0 then downPay m g.1.1 else upPay m g.1.1)
    else iprop(emp))
  unfold barPay recvPay sendPay downPay upPay
  (repeat' split) <;> infer_instance

/-- A round with one duty expects that duty's amount: stated over an abstract schedule, so that nothing of a
    concrete one is ever unfolded to see it. -/
theorem expect_of_single {G D 𝕄' : Type} [DecidableEq G] [DecidableEq D] [URA 𝕄'] (Rd : Rounds.Schedule G D 𝕄') (g : G) (r : ℕ) (d : D) (n : ℕ)
    (hd : Rd.duties g r = {d}) (hn : Rd.amount g r d = n) : Rd.expect g r = n := by
  unfold Schedule.expect Schedule.amountOf; rw [hd, Finset.sum_singleton, hn]

section Sched
variable (c : Dev nD)

theorem loc_ne_bar : (SemLoc.dma locS.sem : SemLoc sig) ≠ .reg barS := fun h => by cases h
theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem loc_ne_recv : (SemLoc.dma locS.sem : SemLoc sig) ≠ .dma recvS.sem := by decide
theorem loc_ne_send : (SemLoc.dma locS.sem : SemLoc sig) ≠ .dma sendS.sem := by decide

omit [FloatOps F] in
theorem duties_bar : (sched (F := F) m).duties (barCell c) 0 = {()} := by
  dsimp only [sched]; exact if_pos ⟨rfl, .inl ⟨rfl, .inl rfl⟩⟩
omit [FloatOps F] in
theorem duties_send : (sched (F := F) m).duties (sendCell c) 0 = {()} := by
  dsimp only [sched]; exact if_pos ⟨rfl, .inl ⟨rfl, .inr (.inl rfl)⟩⟩
omit [FloatOps F] in
theorem duties_recv : (sched (F := F) m).duties (recvCell c) 0 = {()} := by
  dsimp only [sched]; exact if_pos ⟨rfl, .inl ⟨rfl, .inr (.inr rfl)⟩⟩
omit [FloatOps F] in
theorem duties_loc0 : (sched (F := F) m).duties (locCell c) 0 = {()} := by
  dsimp only [sched]; exact if_pos ⟨rfl, .inr ⟨Nat.zero_le _, rfl⟩⟩
omit [FloatOps F] in
theorem duties_loc1 : (sched (F := F) m).duties (locCell c) 1 = {()} := by
  dsimp only [sched]; exact if_pos ⟨rfl, .inr ⟨Nat.le_refl _, rfl⟩⟩
omit [FloatOps F] in
/-- Past their last round the cells have no duty: the three one-round cells from round 1 on, -/
theorem duties_later (g : GSem nD τ sig) (hg : g.2 ≠ .dma locS.sem) : ∀ r, 1 ≤ r → (sched (F := F) m).duties g r = ∅ :=
  fun r hr => by
    dsimp only [sched]
    exact if_neg fun h => h.2.elim (fun h' => by omega) (fun h' => hg h'.2)
omit [FloatOps F] in
/-- the local cell from round 2 on. -/
theorem duties_later2 (g : GSem nD τ sig) : ∀ r, 2 ≤ r → (sched (F := F) m).duties g r = ∅ :=
  fun r hr => by
    dsimp only [sched]
    exact if_neg fun h => h.2.elim (fun h' => by omega) (fun h' => by omega)

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar
omit [FloatOps F] in
theorem amount_loc (r : ℕ) (d : Unit) : (sched (F := F) m).amount (locCell c) r d = N := by dsimp only [sched]; exact if_neg loc_ne_bar

omit [FloatOps F] in
theorem expect_bar : (sched (F := F) m).expect (barCell c) 0 = 1 :=
  expect_of_single _ _ _ () _ (duties_bar m c) (amount_bar m c ())
omit [FloatOps F] in
theorem expect_send : (sched (F := F) m).expect (sendCell c) 0 = N :=
  expect_of_single _ _ _ () _ (duties_send m c) (amount_send m c ())
omit [FloatOps F] in
theorem expect_recv : (sched (F := F) m).expect (recvCell c) 0 = N :=
  expect_of_single _ _ _ () _ (duties_recv m c) (amount_recv m c ())
omit [FloatOps F] in
theorem expect_loc0 : (sched (F := F) m).expect (locCell c) 0 = N :=
  expect_of_single _ _ _ () _ (duties_loc0 m c) (amount_loc m c 0 ())
omit [FloatOps F] in
theorem expect_loc1 : (sched (F := F) m).expect (locCell c) 1 = N :=
  expect_of_single _ _ _ () _ (duties_loc1 m c) (amount_loc m c 1 ())

omit [FloatOps F] in
theorem payload_bar (d : Unit) : (sched (F := F) m).payload (barCell c) 0 d = barPay c := by dsimp only [sched]; rw [if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_recv (d : Unit) : (sched (F := F) m).payload (recvCell c) 0 d = recvPay m c := by
  dsimp only [sched]; rw [if_neg recv_ne_bar, if_pos rfl]
omit [FloatOps F] in
theorem payload_loc0 (d : Unit) : (sched (F := F) m).payload (locCell c) 0 d = downPay m c := by
  dsimp only [sched]; rw [if_neg loc_ne_bar, if_neg loc_ne_recv, if_neg loc_ne_send, if_pos rfl, if_pos rfl]
omit [FloatOps F] in
theorem payload_loc1 (d : Unit) : (sched (F := F) m).payload (locCell c) 1 d = upPay m c := by
  dsimp only [sched]; rw [if_neg loc_ne_bar, if_neg loc_ne_recv, if_neg loc_ne_send, if_pos rfl, if_neg (by decide)]

omit [FloatOps F] in
/-- The whole of a one-duty round, no duty taken yet, is that duty's payload. -/
theorem rest_bar : bigSep ((sched (F := F) m).duties (barCell c) 0 \ ∅) (fun d => (sched (F := F) m).payload (barCell c) 0 d) = barPay c := by
  rw [Finset.sdiff_empty, duties_bar, bigSep_singleton, payload_bar]
omit [FloatOps F] in
theorem rest_send : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv : bigSep ((sched (F := F) m).duties (recvCell c) 0 \ ∅) (fun d => (sched (F := F) m).payload (recvCell c) 0 d) = recvPay m c := by
  rw [Finset.sdiff_empty, duties_recv, bigSep_singleton, payload_recv]
omit [FloatOps F] in
theorem rest_loc0 : bigSep ((sched (F := F) m).duties (locCell c) 0 \ ∅) (fun d => (sched (F := F) m).payload (locCell c) 0 d) = downPay m c := by
  rw [Finset.sdiff_empty, duties_loc0, bigSep_singleton, payload_loc0]
omit [FloatOps F] in
theorem rest_loc1 : bigSep ((sched (F := F) m).duties (locCell c) 1 \ ∅) (fun d => (sched (F := F) m).payload (locCell c) 1 d) = upPay m c := by
  rw [Finset.sdiff_empty, duties_loc1, bigSep_singleton, payload_loc1]

omit [FloatOps F] in
theorem not_unitless (g : GSem nD τ sig) : ¬ (sched (F := F) m).unitless g := fun h => h

end Sched

attribute [sl_rounds] duties_bar duties_send duties_recv duties_loc0 duties_loc1 amount_bar amount_send amount_recv amount_loc
  expect_bar expect_send expect_recv expect_loc0 expect_loc1 payload_bar payload_send payload_recv payload_loc0 payload_loc1

-- from here on the schedule is read through its tables only
attribute [irreducible] sched

end Cert.KernelIdeal.A2A

end
-- ==== Proof.Levels.lean ====
/-
  What each device owes at launch and the order of the waits. A device pays twice into its partner's cells: one unit
  on the partner's barrier (its signal) and a block's credit on the partner's receive cell (its transfer). Its only wait
  while it still owes is the barrier wait, when the transfer's credit is outstanding; so barrier cells sit below receive
  cells, and nothing else needs an order.
-/
import proofs.«900636_g7700000000000637_dist_a2a_v7x_xyz2x2x4_x_m8192_n1024_f32_1_alg».proof.Proof.Basics

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device c owes its partner's receive cell the block's credit and its partner's barrier one unit — summed so that
    the signal, which comes first, peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem recv_ne_bar' : (SemLoc.dma recvS.sem : SemLoc sig) ≠ .reg barS := fun h => by cases h

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar', if_pos rfl]; decide
      · rw [if_neg h] at hg; exact absurd hg (Nat.lt_irrefl 0))

end Cert.KernelIdeal.A2A

end
-- ==== Proof.Landing.lean ====
import proofs.«900636_g7700000000000637_dist_a2a_v7x_xyz2x2x4_x_m8192_n1024_f32_1_alg».proof.Proof.Basics
import Idealize.ShloMosaic.Rules.PointsTo
import Idealize.ShloMosaic.Signature.View
import Idealize.ShloMosaic.Shape

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Writes through an arbitrary view, element by element -/

section Generic
variable {sg : RefSig} {κ : Kind} {sp : Space} {s : Shape} {e : EltTy} {Val : EltTy → Type}

/-- An unmasked write through a view leaves, under the view, the payload alone: two such writes of one payload
    agree there, whatever they were laid over. -/
theorem write_univ_agree_on_set (v : View sg κ sp s e) (f g : v.ty.Contents Val) (w : s.Idx → Val e) :
    ∀ i ∈ v.set, v.write Val f w Finset.univ i = v.write Val g w Finset.univ i := by
  intro i hi
  exact View.write_congr (fun _ _ _ => rfl) (fun h => absurd hi h)

/-- Contents that agree with `f` on a set of elements no element of the view lies in agree there with any unmasked
    write through the view over `f`. -/
theorem agree_write_univ_off_set (v : View sg κ sp s e) (I : Finset v.ty.Idx) (hd : Disjoint I v.set)
    (l f : v.ty.Contents Val) (w : s.Idx → Val e) (h : ∀ i ∈ I, l i = f i) :
    ∀ i ∈ I, l i = v.write Val f w Finset.univ i := by
  intro i hi
  rw [View.write_of_not_mem f w Finset.univ (Finset.disjoint_left.mp hd hi)]
  exact h i hi

end Generic

/-- The copy down fills VMEM whole: whatever it held, it ends at the kept columns. -/
theorem down_landing (c : Dev nD) (fd : Buf (Elt F) ((vM : Memref sig .tc .vmem S8192x1024 .f32).view.loc (c : Thread nD τ))) :
    (vM : Memref sig .tc .vmem S8192x1024 .f32).view.write (Elt F) fd ((srcL c).view.read (Elt F) (xA m c)) Finset.univ = vLanded m c := by
  unfold vLanded
  exact View.write_whole_univ cc0_scratch0 fd _

/-! ## The two row ranges of a result -/

/-- A device and its partner sit at different x. -/
theorem x_cases (c : Dev nD) :
    (c.val / 8 = 0 ∧ (peer c).val / 8 = 1) ∨ (c.val / 8 = 1 ∧ (peer c).val / 8 = 0) := by
  revert c; decide

/-- The elements of a result under rows [8192·x(c), 8192·x(c) + 8192), as a rectangle of the result's shape. -/
theorem dst_set (c : Dev nD) :
    (dstM c).view.set = (Rect.unit (s := S16384x1024) (k0_off1 c) S8192x1024.size (k0_off1_inb c)).set :=
  View.set_slice_whole main_v1 _

/-- Rows [8192·x(peer c), …) and rows [8192·x(c), …) of a result share no element. -/
theorem dst_disjoint (c : Dev nD) : Disjoint (dstM (peer c)).view.set (dstM c).view.set := by
  rw [dst_set, dst_set]
  apply Rect.unit_disjoint 0
  rw [k0_off1_eq, k0_off1_eq]
  rcases x_cases c with ⟨h, h'⟩ | ⟨h, h'⟩ <;> rw [h, h'] <;> decide

/-- On the rows the copy up writes, what it leaves is the final result, whatever the rows held. -/
theorem up_landing (c : Dev nD) (fd : Buf (Elt F) ((dstM c).view.loc (c : Thread nD τ))) :
    pts (F := F) (dstM c) c ((dstM c).view.write (Elt F) fd ((vM : Memref sig .tc .vmem S8192x1024 .f32).view.read (Elt F) (vLanded m c)) Finset.univ)
      = pts (dstM c) c (outFinal m c) := by
  unfold outFinal
  exact pointsTo_congr (write_univ_agree_on_set (dstM c).view fd _ _)

/-- On the rows the peer's transfer writes on device c, what it leaves is the final result, whatever the rows held. -/
theorem recv_landing (c : Dev nD) (fd : Buf (Elt F) ((dstM (peer c)).view.loc (c : Thread nD τ))) :
    pts (F := F) (dstM (peer c)) c ((dstM (peer c)).view.write (Elt F) fd ((srcR (peer c)).view.read (Elt F) (xA m (peer c))) Finset.univ)
      = pts (dstM (peer c)) c (outFinal m c) := by
  unfold outFinal
  exact pointsTo_congr (agree_write_univ_off_set (dstM c).view (dstM (peer c)).view.set (dst_disjoint c) _ _ _
    (write_univ_agree_on_set (dstM (peer c)).view fd _ _))

/-! ## The argument's two column ranges; the splits -/

/-- The elements of the argument block under the sent columns, -/
theorem srcR_set (c : Dev nD) :
    (srcR c).view.set = (Rect.unit (s := S8192x2048) (k0_off2 c) S8192x1024.size (k0_off2_inb c)).set :=
  View.set_slice_whole main_arg0 _

/-- and under the kept columns, as rectangles of the block's shape. -/
theorem srcL_set (c : Dev nD) :
    (srcL c).view.set = (Rect.unit (s := S8192x2048) (k0_off3 c) S8192x1024.size (k0_off3_inb c)).set :=
  View.set_slice_whole main_arg0 _

/-- Columns [1024·(1 − x), …) and columns [1024·x, …) share no element. -/
theorem src_disjoint (c : Dev nD) : Disjoint (srcR c).view.set (srcL c).view.set := by
  rw [srcR_set, srcL_set]
  apply Rect.unit_disjoint 1
  rw [k0_off2_eq, k0_off3_eq]
  rcases x_cases c with ⟨h, -⟩ | ⟨h, -⟩ <;> rw [h] <;> decide

/-- The two column ranges are all 2048 columns. -/
theorem src_union (c : Dev nD) : (srcR c).view.set ∪ (srcL c).view.set = Finset.univ := by
  rw [srcR_set, srcL_set]
  ext i
  rw [Finset.mem_union, Rect.mem_set_unit, Rect.mem_set_unit, k0_off2_eq, k0_off3_eq]
  have h0 : (i 0).val < 8192 := (i 0).isLt
  have h1 : (i 1).val < 2048 := (i 1).isLt
  simp only [Finset.mem_univ, iff_true, Fin.forall_fin_two]
  rcases x_cases c with ⟨h, -⟩ | ⟨h, -⟩ <;> rw [h] <;>
    simp only [Matrix.cons_val_zero, Matrix.cons_val_one, Matrix.head_cons] <;> omega

/-- The two row ranges are all 16384 rows. -/
theorem dst_union (c : Dev nD) : (dstM c).view.set ∪ (dstM (peer c)).view.set = Finset.univ := by
  rw [dst_set, dst_set]
  ext i
  rw [Finset.mem_union, Rect.mem_set_unit, Rect.mem_set_unit, k0_off1_eq, k0_off1_eq]
  have h0 : (i 0).val < 16384 := (i 0).isLt
  have h1 : (i 1).val < 1024 := (i 1).isLt
  simp only [Finset.mem_univ, iff_true, Fin.forall_fin_two]
  rcases x_cases c with ⟨h, h'⟩ | ⟨h, h'⟩ <;> rw [h, h'] <;>
    simp only [Matrix.cons_val_zero, Matrix.cons_val_one, Matrix.head_cons] <;> omega

/-- The argument block is its sent columns and its kept columns. -/
theorem arg_split (c : Dev nD) (f : Buf (Elt F) ((c : Thread nD τ).loc main_arg0)) :
    ((((c : Thread nD τ).loc main_arg0) ↦{fullShare} f : sProp 𝕄)) ⊣⊢ iprop(pts (srcR c) c f ∗ pts (srcL c) c f) := by
  have h := pointsTo_union (nD := nD) (τ := τ) (sig := sig) (Ix := Unit) (Val := Elt F) (Name := ℕ) (U := UU) (Lvl := ℕ)
    (ℓ := (c : Thread nD τ).loc main_arg0) (q := fullShare) (f := f) (src_disjoint c)
  rw [src_union c] at h
  exact h

/-- The result is the rows the device writes itself and the rows its peer writes. -/
theorem out_split (c : Dev nD) (f : Buf (Elt F) ((c : Thread nD τ).loc main_v1)) :
    ((((c : Thread nD τ).loc main_v1) ↦{fullShare} f : sProp 𝕄)) ⊣⊢ iprop(pts (dstM c) c f ∗ pts (dstM (peer c)) c f) := by
  have h := pointsTo_union (nD := nD) (τ := τ) (sig := sig) (Ix := Unit) (Val := Elt F) (Name := ℕ) (U := UU) (Lvl := ℕ)
    (ℓ := (c : Thread nD τ).loc main_v1) (q := fullShare) (f := f) (Disjoint.symm (dst_disjoint c))
  rw [dst_union c] at h
  exact h

end Cert.KernelIdeal.A2A

end
-- ==== Proof.Data.lean ====
/-
  What one device's body starts from and ends with. Besides the cells' invariants, its positions and the tokens of the
  duties it pays, a device holds its argument block and its result whole; the body cuts each into the two halves the
  exchange moves separately and joins them again at the end, the result then at the exchanged contents.
-/
import proofs.«900636_g7700000000000637_dist_a2a_v7x_xyz2x2x4_x_m8192_n1024_f32_1_alg».proof.Proof.Proto
import proofs.«900636_g7700000000000637_dist_a2a_v7x_xyz2x2x4_x_m8192_n1024_f32_1_alg».proof.Proof.Levels
import proofs.«900636_g7700000000000637_dist_a2a_v7x_xyz2x2x4_x_m8192_n1024_f32_1_alg».proof.Proof.Landing

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads that cross to the partner, with sender and receiver named apart

  Paying into the partner's cell means speaking of the partner's partner; with both devices as arguments that is a
  rewrite of one argument. -/

def barPayAt (s p : Dev nD) : sProp 𝕄 := iprop((∃ f, pts (F := F) (dstM s) p f) ∗ reached ER (recvCell p) 0)
def recvPayAt (s p : Dev nD) : sProp 𝕄 := pts (dstM s) p (outFinal m p)

omit [FloatOps F] in
theorem barPay_eq (c : Dev nD) : barPay (F := F) c = barPayAt c (peer c) := rfl
omit [FloatOps F] in
theorem barPay_peer (c : Dev nD) : barPay (F := F) (peer c) = barPayAt (peer c) c := by
  rw [barPay_eq]; exact congrArg (barPayAt (peer c)) (peer_peer c)
theorem recvPay_eq (c : Dev nD) : recvPay m c = recvPayAt m (peer c) c := rfl
theorem recvPay_peer (c : Dev nD) : recvPay m (peer c) = recvPayAt m c (peer c) := by
  rw [recvPay_eq]; exact congrArg (fun s => recvPayAt m s (peer c)) (peer_peer c)

/-- What the transfer from s lands on its partner p is p's final rows there. -/
theorem recv_landing_at (s p : Dev nD) (hs : s = peer p) (fd : Buf (Elt F) ((dstM s).view.loc (p : Thread nD τ))) :
    pts (F := F) (dstM s) p ((dstM s).view.write (Elt F) fd ((srcR s).view.read (Elt F) (xA m s)) Finset.univ) = recvPayAt m s p := by
  subst hs; exact recv_landing m p fd

/-! ## The ghost state -/

/-- The cells' invariants device c's body opens, under the names the launch allocated them at: its own four, and its
    partner's barrier and receive cells (its signal, its transfer). -/
def invs (K : Dev nD × Fin 4 → ℕ) (c : Dev nD) : sProp 𝕄 :=
  iprop(cellInv ER (sched m) (K (c, 0)) (barCell c) ∗ cellInv ER (sched m) (K (c, 1)) (locCell c)
    ∗ cellInv ER (sched m) (K (c, 2)) (sendCell c) ∗ cellInv ER (sched m) (K (c, 3)) (recvCell c)
    ∗ cellInv ER (sched m) (K (peer c, 0)) (barCell (peer c)) ∗ cellInv ER (sched m) (K (peer c, 3)) (recvCell (peer c)))

instance invs_persistent (K : Dev nD × Fin 4 → ℕ) (c : Dev nD) : BI.Persistent (invs m K c) := by unfold invs; infer_instance

/-- Device c's share of the exchange's ghost state: the invariants; its positions at round 0 of its four cells; that
    round 0 is reached of the cells it pays and of its own; the five duty tokens it pays with — its partner's barrier and
    receive duties, its own two local duties and its send duty. -/
def ghost (K : Dev nD × Fin 4 → ℕ) (c : Dev nD) : sProp 𝕄 :=
  iprop(invs m K c
    ∗ atPos ER (barCell c) 0 ∅ 0 ∗ atPos ER (locCell c) 0 ∅ 0 ∗ atPos ER (sendCell c) 0 ∅ 0 ∗ atPos ER (recvCell c) 0 ∅ 0
    ∗ reached ER (barCell (peer c)) 0 ∗ reached ER (recvCell (peer c)) 0 ∗ reached ER (locCell c) 0 ∗ reached ER (sendCell c) 0 ∗ reached ER (recvCell c) 0
    ∗ dutyTok ER (barCell (peer c)) 0 () ∗ dutyTok ER (recvCell (peer c)) 0 () ∗ dutyTok ER (locCell c) 0 () ∗ dutyTok ER (locCell c) 1 ()
    ∗ dutyTok ER (sendCell c) 0 ())

abbrev argPts (c : Dev nD) : sProp 𝕄 := ((c : Thread nD τ).loc main_arg0) ↦{fullShare} xA m c
abbrev outPts (c : Dev nD) (f : Buf (Elt F) ((c : Thread nD τ).loc main_v1)) : sProp 𝕄 := ((c : Thread nD τ).loc main_v1) ↦{fullShare} f
abbrev vmPts (c : Dev nD) (f : Buf (Elt F) ((c : Thread nD τ).loc cc0_scratch0)) : sProp 𝕄 := ((c : Thread nD τ).loc cc0_scratch0) ↦{fullShare} f

/-- What device c's body starts from besides VMEM: the ghost state at some names, the credit of its two waits others pay
    (one unit on its barrier, a block on its receive cell), the levels, and its argument and result whole as launched. -/
def start (c : Dev nD) : sProp 𝕄 :=
  iprop((∃ K, ghost m K c) ∗ cred (tallyAt (barCell c) () 1) ∗ cred (tallyAt (recvCell c) () N) ∗ levAts L lv
    ∗ argPts m c ∗ outPts c (m ((c : Thread nD τ).loc main_v1)))

def Φ₀ (c : Dev nD) : sProp 𝕄 := iprop(start m c ∗ ∃ f, vmPts (F := F) c f)
/-- After the body: VMEM at something, the three own cells at zero and closed, the argument as launched, the result
    exchanged. -/
def Φ₁ (c : Dev nD) : sProp 𝕄 :=
  iprop((∃ f, vmPts (F := F) c f) ∗ semVal (locCell c) 0 ∗ semVal (sendCell c) 0 ∗ semVal (recvCell c) 0
    ∗ argPts m c ∗ outPts c (outFinal m c))

/-- The pipeline's proof data: no window, one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.A2A

end
-- ==== Proof.Body.lean ====
/-
  One device's body, stepped from the ghost state to the exchanged result: the signal to the partner hands it the half of
  this device's result the partner will write; the barrier wait brings the partner's half of ITS result; the transfer pays
  the partner's receive cell; the two local copies run one after the other on the local cell's two rounds; the send and
  receive waits bring back the sent columns and the landed rows; the three own cells close; the halves are joined.
-/
import proofs.«900636_g7700000000000637_dist_a2a_v7x_xyz2x2x4_x_m8192_n1024_f32_1_alg».proof.Proof.Data

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(emp) := by
  rw [show (Finset.univ : Finset (Fin cfg0.W)) = ∅ from rfl]; exact BI.bigSep_empty

omit [FloatOps F] in
theorem vm_set : (vM : Memref sig .tc .vmem S8192x1024 .f32).view.set = Finset.univ := View.set_whole _
omit [FloatOps F] in
theorem vmPts_eq (c : Dev nD) (f : Buf (Elt F) ((c : Thread nD τ).loc cc0_scratch0)) : pts (F := F) vM c f = vmPts c f := by
  unfold pts vmPts; rw [vm_set]

section Body

variable (K : Dev nD × Fin 4 → ℕ)

/-- The transfer rule at the exchange's cells, the transfer addressed to n = the partner (substituted, not rewritten). -/
theorem wp_send_x (c n : Dev nD) (hn : n = peer c) {hsc : (dstM c : Memref sig (Dev.tc n : Thread nD τ).2.kind .hbm S8192x1024 .f32).view.ref.isScScratch = false}
    {hsrc : (srcR c).view.WordExact} {hdst : (dstM c).view.WordExact}
    {hsem : DmaTarget.Typed .hbm (.dma recvS.sem) (.remote (Dev.tc n : Thread nD τ) (dstM c) (.dma sendS.sem) hsc)}
    {α : Type} {Q : α → sProp 𝕄} {k : PUnit → Prog (TpuEff nD τ sig (Elt F) Λ₀ .tc) α}
    (fn : Buf (Elt F) ((dstM c).view.loc (peer c : Thread nD τ))) (W : Waits sig Unit) :
    iprop(cellInv ER (sched m) (K (c, 2)) (sendCell c) ∗ cellInv ER (sched m) (K (peer c, 3)) (recvCell (peer c))
        ∗ pts (srcR c) c (xA m c) ∗ pts (dstM c) (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcR c) (.remote (Dev.tc n : Thread nD τ) (dstM c) (.dma sendS.sem) hsc) (.dma recvS.sem) hsrc hdst hsem) k) Q) := by
  subst hn
  exact Rounds.wp_send_pointsTo 𝒱₀ ER (sched m) (c : Thread nD τ) none (c' := (peer c : Thread nD τ)) (src := srcR c) (dst := dstM c)
    (κ₁ := K (c, 2)) (κ₂ := K (peer c, 3))
    (r₁ := 0) (r₂ := 0) (d₁ := ()) (d₂ := ()) (fs := xA m c) (fd := fn)
    (by rw [duties_send]; exact Finset.mem_singleton_self _) (by rw [duties_recv]; exact Finset.mem_singleton_self _)
    () () N (amount_eq_N _ _) (amount_send m c ()) (amount_recv m (peer c) ()) 0 (by rw [zero_add]) (W := W)
    (by rw [payload_send]; exact BI.Entails.refl _)
    (by rw [payload_recv, recvPay_peer]; exact Entails.of_eq (recv_landing_at m c (peer c) (peer_peer c).symm fn))

def bodyPre (c : Dev nD) : sProp 𝕄 :=
  iprop((ghost m K c ∗ cred (tallyAt (barCell c) () 1) ∗ cred (tallyAt (recvCell c) () N) ∗ levAts L lv
      ∗ argPts m c ∗ outPts c (m ((c : Thread nD τ).loc main_v1)) ∗ ∃ f, vmPts (F := F) c f)
    ∗ (dats m 0 c).owesAt () t₀.castSucc)

def bodyPost (c : Dev nD) : sProp 𝕄 := iprop(Φ₁ m c ∗ (dats m 0 c).owesAt () t₀.succ)

set_option maxHeartbeats 1600000 in
/-- The body, from bodyPre to bodyPost, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIloc, #HIsnd, #HIrcv, #HIbarP, #HIrcvP⟩, HatB, HatL, HatS, HatV, #HrBP, #HrVP, #HrL, #HrS, #HrV, HtBP, HtVP, HtL0, HtL1, HtS⟩,
    HcB, HcV, #Hlev, Harg, Hout, ⟨%fv, Hvm⟩⟩, Ho⟩, Hk⟩
  unfold Dat.owesAt Pipeline.owesWithin
  icases Ho with ⟨%W, %hW, HO⟩
  rw [show (dats m 0 c).owed t₀.castSucc = O₀ c from rfl]
  simp only [dev1_eq c]
  -- the argument and the result, cut in their halves
  ihave Harg' := (arg_split (F := F) c (xA m c)).1 $$ Harg
  icases Harg' with ⟨HsrcR, HsrcL⟩
  ihave Hout' := (out_split (F := F) c (m ((c : Thread nD τ).loc main_v1))).1 $$ Hout
  icases Hout' with ⟨HdstL, HdstR⟩
  -- the signal to the partner's barrier: with it the rows of this device's result that the partner's transfer writes,
  -- and that this device stands at round 0 of its receive cell
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (O₁ c) rfl)
    $$ [HO HtBP HdstR]
  · isplitr; · iexact HIbarP
    isplitl [HO]; · iexact HO
    isplitl [HtBP]; · iexact HtBP
    isplitl [HdstR]
    · rw [payload_bar, barPay_peer]; unfold barPayAt
      isplitl [HdstR]; · iexists _; iexact HdstR
      iexact HrV
    · iexact HrBP
  iintro HO
  -- the wait on the own barrier, owing the partner's receive credit: the partner's rows for this device's transfer come with it
  unfold O₁
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq ((rest_bar m c).trans (barPay_eq c))) $$ Hpay
  unfold barPayAt
  icases Hp with ⟨⟨%fn, HdstP⟩, #HrVP'⟩
  -- the transfer of the partner's columns into the partner's result
  iapply (wp_send_x m K c _ (dev2_eq c) fn (insert (SemLoc.reg barS, ()) W)) $$ [HsrcR HdstP HO HtS HtVP]
  · isplitr; · iexact HIsnd
    isplitr; · iexact HIrcvP
    isplitl [HsrcR]; · iexact HsrcR
    isplitl [HdstP]; · iexact HdstP
    isplitl [HO]; · iexact HO
    isplitl [HtS]; · iexact HtS
    isplitr; · iexact HrS
    isplitl [HtVP]; · iexact HtVP
    iexact HrVP
  iintro ⟨HcS, HO⟩
  -- the copy of the kept columns down into VMEM: round 0 of the local cell
  ihave Hvm' := (Entails.of_eq (vmPts_eq (F := F) c fv).symm) $$ Hvm
  iapply (Rounds.wp_copy_pointsTo 𝒱₀ ER (sched m) (c : Thread nD τ) none (src := srcL c) (dst := vM) (κ := K (c, 1)) (r := 0) (d := ())
      (fs := xA m c) (fd := fv)
      (by rw [duties_loc0]; exact Finset.mem_singleton_self _) () N (amount_eq_N _ _) (amount_loc m c 0 ())
      (by rw [payload_loc0]; unfold downPay; rw [down_landing])) $$ [HsrcL Hvm' HtL0]
  · isplitr; · iexact HIloc
    isplitl [HsrcL]; · iexact HsrcL
    isplitl [Hvm']; · iexact Hvm'
    isplitl [HtL0]; · iexact HtL0
    iexact HrL
  iintro HcL
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      ((Nat.zero_add _).trans ((credit_eq_N _).trans (expect_loc0 m c).symm))) $$ [HcL HO HatL]
  · isplitr; · iexact HIloc
    isplitl [HcL]; · iexact HcL
    isplitl [HO]; · iexact HO
    isplitr; · rw [MayWait_zero]; iempintro
    iexact HatL
  iintro ⟨HO, HatL, #HrL1, Hpay⟩
  ihave Hp := (Entails.of_eq (rest_loc0 m c)) $$ Hpay
  unfold downPay
  icases Hp with ⟨Hvm', HsrcL⟩
  -- the copy up from VMEM into this device's own rows of its result: round 1 of the local cell
  iapply (Rounds.wp_copy_pointsTo 𝒱₀ ER (sched m) (c : Thread nD τ) none (src := vM) (dst := dstM c) (κ := K (c, 1)) (r := 1) (d := ())
      (fs := vLanded m c) (fd := m ((c : Thread nD τ).loc main_v1))
      (by rw [duties_loc1]; exact Finset.mem_singleton_self _) () N (amount_eq_N _ _) (amount_loc m c 1 ())
      (by rw [payload_loc1]; unfold upPay
          exact Entails.of_eq (congrArg (fun X => iprop(X ∗ pts vM c (vLanded m c))) (up_landing m c _)))) $$ [Hvm' HdstL HtL1]
  · isplitr; · iexact HIloc
    isplitl [Hvm']; · iexact Hvm'
    isplitl [HdstL]; · iexact HdstL
    isplitl [HtL1]; · iexact HtL1
    iexact HrL1
  iintro HcL
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma locS.sem, ()) (insert (SemLoc.reg barS, ()) W)) (R := 0 + 1) (m := 0) (T := ∅)
      ((Nat.zero_add _).trans ((credit_eq_N _).trans (expect_loc1 m c).symm))) $$ [HcL HO HatL]
  · isplitr; · iexact HIloc
    isplitl [HcL]; · iexact HcL
    isplitl [HO]; · iexact HO
    isplitr; · rw [MayWait_zero]; iempintro
    iexact HatL
  iintro ⟨HO, HatL, -, Hpay⟩
  ihave Hp := (Entails.of_eq (rest_loc1 m c)) $$ Hpay
  unfold upPay
  icases Hp with ⟨HdstL, Hvm'⟩
  -- the wait on the send cell: the sent columns back
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma locS.sem, ()) (insert (SemLoc.dma locS.sem, ()) (insert (SemLoc.reg barS, ()) W))) (R := 0) (m := 0) (T := ∅)
      ((Nat.zero_add _).trans ((credit_eq_N _).trans (expect_send m c).symm))) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HsrcR := (Entails.of_eq (rest_send m c)) $$ Hpay
  unfold sendPay
  -- the wait on the receive cell: the rows the partner wrote, at their final contents
  iapply (Rounds.wp_wait_rest_token 𝒱₀ ER (sched m) (c : Thread nD τ) none (κ := K (c, 3))
      (wpE_waitDma2_eq 𝒱₀ (c : Thread nD τ) none Set.univ) (Set.mem_univ _) () (O := 0)
      (W := insert (SemLoc.dma sendS.sem, ()) (insert (SemLoc.dma locS.sem, ()) (insert (SemLoc.dma locS.sem, ()) (insert (SemLoc.reg barS, ()) W)))) (R := 0) (m := 0) (T := ∅)
      ((Nat.zero_add _).trans ((credit_eq_N _).trans (expect_recv m c).symm))) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HdstR := (Entails.of_eq ((rest_recv m c).trans (recvPay_eq m c))) $$ Hpay
  unfold recvPayAt
  -- the three own cells close: their counters at zero are the core's again
  imod (Rounds.cell_close ER (sched m) (Set.mem_univ (K (c, 1))) (not_unitless m _) (R := 0 + 1 + 1) (duties_later2 m (locCell c))) $$ [HatL] with HzL
  · isplitr; · iexact HIloc
    iexact HatL
  imod (Rounds.cell_close ER (sched m) (Set.mem_univ (K (c, 2))) (not_unitless m _) (R := 0 + 1) (duties_later m (sendCell c) loc_ne_send.symm)) $$ [HatS] with HzS
  · isplitr; · iexact HIsnd
    iexact HatS
  imod (Rounds.cell_close ER (sched m) (Set.mem_univ (K (c, 3))) (not_unitless m _) (R := 0 + 1) (duties_later m (recvCell c) loc_ne_recv.symm)) $$ [HatV] with HzV
  · isplitr; · iexact HIrcv
    iexact HatV
  rw [wp_ret]; imodintro
  iapply Hk
  unfold bodyPost Φ₁ Dat.owesAt Pipeline.owesWithin
  rw [show (dats m 0 c).owed t₀.succ = 0 from rfl]
  isplitr [HO]
  · isplitl [Hvm']; · iexists (vLanded m c); rw [← vmPts_eq]; iexact Hvm'
    isplitl [HzL]; · iexact HzL
    isplitl [HzS]; · iexact HzS
    isplitl [HzV]; · iexact HzV
    isplitl [HsrcR HsrcL]
    · iapply (arg_split (F := F) c (xA m c)).2
      isplitl [HsrcR] <;> iassumption
    · iapply (out_split (F := F) c (outFinal m c)).2
      isplitl [HdstL] <;> iassumption
  · iexists (insert (SemLoc.dma recvS.sem, ()) (insert (SemLoc.dma sendS.sem, ()) (insert (SemLoc.dma locS.sem, ()) (insert (SemLoc.dma locS.sem, ()) (insert (SemLoc.reg barS, ()) W)))))
    isplitr; · ipureintro; exact fun _ _ => Or.inl trivial
    iexact HO

/-- The library's body obligation on device c: the one point, no window. -/
theorem body_obligation (c : Dev nD) : Pipeline.BodyObligationLoose (dats (F := F) m 0 c) (defs₀ (F := F)) 𝒱₀ () Set.univ := fun t => by
  rw [fin_N t]
  rw [bigSep_W, bigSep_W]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      (Memref.whole cc0_scratch0) (Memref.isWhole_whole _) cc0_scratch1 cc0_scratch2 cc0_scratch3)
    (fun _ => iprop(Φ₁ m c ∗ (dats m 0 c).owesAt () t₀.succ ∗ emp))
  unfold Φ₀ start
  iintro ⟨⟨⟨⟨%K, Hg⟩, H1, H2, H3, H4, H5⟩, Hv⟩, Ho, -⟩
  iapply (sound_body m K c fun _ => iprop(Φ₁ m c ∗ (dats m 0 c).owesAt () t₀.succ ∗ emp))
  unfold bodyPre bodyPost
  isplitr []
  · isplitr [Ho]
    · isplitl [Hg]; · iexact Hg
      isplitl [H1]; · iexact H1
      isplitl [H2]; · iexact H2
      isplitl [H3]; · iexact H3
      isplitl [H4]; · iexact H4
      isplitl [H5]; · iexact H5
      iexact Hv
    · iexact Ho
  · iintro ⟨H, Ho⟩
    isplitl [H]; · iexact H
    isplitl [Ho]; · iexact Ho
    iempintro

end Body

end Cert.KernelIdeal.A2A

end
-- ==== Proof.Launch1.lean ====
/-
  Funding the exchange's cells and allocating their invariants, for all sixteen devices at once. The launch element is
  the round state at zero of every device's four cells, each cell's position and reached-mark at round 0, and a token per
  duty: five per device (the local cell has two rounds). Each cell's counter at zero and its round state make its
  invariant's body; once every invariant has a name, the tokens of the duties a device's PARTNER pays — its barrier's and
  its receive cell's — cross to the partner along the involution, and each device is left with the ghost state its body
  starts from.
-/
import proofs.«900636_g7700000000000637_dist_a2a_v7x_xyz2x2x4_x_m8192_n1024_f32_1_alg».proof.Proof.Data
import Idealize.ShloMosaic.Lib.Pipeline.Launch
import Idealize.ShloMosaic.Lib.Pipeline.Kit

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, enumerated -/

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: barrier round 0, local rounds 0 and 1, send round 0, receive round 0. -/
abbrev tokOf (cj : Dev nD × Fin 5) : GSem nD τ sig × ℕ × Unit := match cj.2 with
  | 0 => (barCell cj.1, 0, ()) | 1 => (locCell cj.1, 0, ()) | 2 => (locCell cj.1, 1, ()) | 3 => (sendCell cj.1, 0, ()) | 4 => (recvCell cj.1, 0, ())
theorem tokOf_injective : Function.Injective (tokOf : Dev nD × Fin 5 → GSem nD τ sig × ℕ × Unit) := by
  rintro ⟨c, j⟩ ⟨c', j'⟩ h
  have h1 : c = c' := by
    have := congrArg (fun x : GSem nD τ sig × ℕ × Unit => x.1.1.1) h
    fin_cases j <;> fin_cases j' <;> exact this
  subst h1
  have : j = j' := by
    fin_cases j <;> fin_cases j' <;> first | rfl | exact absurd (congrArg (fun x : GSem nD τ sig × ℕ × Unit => (x.1.2, x.2.1)) h) (fun h' => by cases h')
  subst this; rfl
def ringToks : Finset (GSem nD τ sig × ℕ × Unit) := Finset.univ.map ⟨tokOf, tokOf_injective⟩

/-- The launch element: the pipeline library's (no window, so no cell of its own) and the exchange's. -/
def u₀ : UU := (initOf (Pipeline.cells cfgs cellOf_inj) (Pipeline.launchToks cfgs cellOf_inj), initOf ringCells ringToks)

/-- The duty tokens of device c's own cells. -/
def toks (c : Dev nD) : sProp 𝕄 := iprop(dutyTok ER (barCell c) 0 () ∗ dutyTok ER (locCell c) 0 () ∗ dutyTok ER (locCell c) 1 () ∗ dutyTok ER (sendCell c) 0 () ∗ dutyTok ER (recvCell c) 0 ())

/-- What the launch element deals device c. -/
def G (c : Dev nD) : sProp 𝕄 := iprop((bigSep Finset.univ fun k : Fin 4 => roundState ER (sched m) (kcell (c, k)) 0) ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 4 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin5]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The local, send and receive semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (locCell c) 0 ∗ semVal (sendCell c) 0 ∗ semVal (recvCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Allocating the invariants -/

omit [FloatOps F] in
/-- A device's four counters at zero, in the cells' order. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HL, HS, HV⟩, HB⟩
  isplitl [HB]; · iexact HB
  isplitl [HL]; · iexact HL
  isplitl [HS] <;> iassumption

omit [FloatOps F] in
/-- One device's four invariants, each at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the ghost state -/

/-- What every device may read: all sixty-four invariants at their names, and that round 0 of every cell is reached. -/
def records (K : Dev nD × Fin 4 → ℕ) : sProp 𝕄 :=
  iprop((bigSep Finset.univ fun ck : Dev nD × Fin 4 => cellInv ER (sched m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (sched m) (K ck) (kcell ck) : sProp 𝕄)) ⊢ cellInv ER (sched m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device c: its positions, and the tokens of the duties IT pays — its partner's barrier and receive
    duties, its own two local duties and its send duty. -/
def payToks (c : Dev nD) : sProp 𝕄 :=
  iprop(dutyTok ER (barCell (peer c)) 0 () ∗ dutyTok ER (recvCell (peer c)) 0 () ∗ dutyTok ER (locCell c) 0 () ∗ dutyTok ER (locCell c) 1 ()
    ∗ dutyTok ER (sendCell c) 0 ())
def linear (c : Dev nD) : sProp 𝕄 :=
  iprop((atPos ER (barCell c) 0 ∅ 0 ∗ atPos ER (locCell c) 0 ∅ 0 ∗ atPos ER (sendCell c) 0 ∅ 0 ∗ atPos ER (recvCell c) 0 ∅ 0) ∗ payToks c)

omit [FloatOps F] in
theorem ghost_intro (K : Dev nD × Fin 4 → ℕ) (c : Dev nD) : iprop(records m K ∗ linear c) ⊢ G' m c := by
  unfold records linear payToks G' ghost invs
  iintro ⟨⟨#HI, #HR⟩, ⟨HaB, HaL, HaS, HaV⟩, HtB, HtV, HtL0, HtL1, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 3)); iexact HI
  isplitl [HaB]; · iexact HaB
  isplitl [HaL]; · iexact HaL
  isplitl [HaS]; · iexact HaS
  isplitl [HaV]; · iexact HaV
  isplitr; · iapply (reached_at (F := F) (peer c, 0)); iexact HR
  isplitr; · iapply (reached_at (F := F) (peer c, 3)); iexact HR
  isplitr; · iapply (reached_at (F := F) (c, 1)); iexact HR
  isplitr; · iapply (reached_at (F := F) (c, 2)); iexact HR
  isplitr; · iapply (reached_at (F := F) (c, 3)); iexact HR
  isplitl [HtB]; · iexact HtB
  isplitl [HtV]; · iexact HtV
  isplitl [HtL0]; · iexact HtL0
  isplitl [HtL1]; · iexact HtL1
  iexact HtS

omit [FloatOps F] in
/-- The tokens dealt across the pairs: a device's barrier token and its receive token go to its partner, which pays those
    duties; the two local tokens and the send token stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv flip (fun c : Dev nD => (dutyTok ER (barCell c) 0 () : sProp 𝕄)),
    bigSep_univ_equiv flip (fun c : Dev nD => (dutyTok ER (recvCell c) 0 () : sProp 𝕄))]
  iintro ⟨HB, HL0, HL1, HS, HV⟩
  isplitl [HB]; · iexact HB
  isplitl [HV]; · iexact HV
  isplitl [HL0]; · iexact HL0
  isplitl [HL1]; · iexact HL1
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.A2A

end
-- ==== Proof.Launch2.lean ====
/-
  The launch credit and the launch's small side conditions. Every device owes its partner a block's credit on the
  partner's receive cell and one unit on the partner's barrier; the partner map is an involution, so summed over the
  devices that owe, each device is dealt exactly the credit of its own two waits that others pay. The kernel's three own
  semaphores are scoped and distinct, and with no windowed array there is no share to state and no staging cell to wait on.
-/
import proofs.«900636_g7700000000000637_dist_a2a_v7x_xyz2x2x4_x_m8192_n1024_f32_1_alg».proof.Proof.Data
import Idealize.ShloMosaic.Lib.Pipeline.Launch
import Idealize.ShloMosaic.Lib.Pipeline.Kit

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the arrays' shares -/

theorem ownSemFacts : Pipeline.OwnSemFacts cfg0.spec osem := by decide

/-- There is no windowed array. -/
theorem share_eq (c : Dev nD) (w : Fin cfg0.W) : (dats m 0 c).share w = fullShare := w.elim0

/-! ## The launch credit -/

omit [FloatOps F] in
/-- What the launch deals device c for the two waits others pay: one unit on its barrier, a block's credit on its receive cell. -/
theorem creds (c : Dev nD) :
    (Pipeline.launchCred O₀ c : sProp 𝕄) ⊢ iprop(cred (tallyAt (barCell c) () 1) ∗ cred (tallyAt (recvCell c) () N)) := by
  refine (Entails.of_eq (Pipeline.launchCred_add O₁ (fun d => tallyAt (barCell (peer d)) () 1) c)).trans ?_
  refine sep_symm.trans (BI.sep_mono ?_ ?_)
  · exact Pipeline.launchCred_tallyAt (.reg barS) peer peer peer_peer peer_peer () 1 c
  · exact Pipeline.launchCred_tallyAt (.dma recvS.sem) peer peer peer_peer peer_peer () N c

/-! ## The pipeline's waits -/

/-- The pipeline stages nothing, so it has no cell to wait on. -/
theorem waits (c : Dev nD) : (levAts L lv : sProp 𝕄) ⊢ Pipeline.cellsWaits cfgs (dats m) () 0 c :=
  Pipeline.cellsWaits_intro cfgs (dats m) () 0 c fun w => w.elim0

end Cert.KernelIdeal.A2A

end
-- ==== Proof.Run.lean ====
/-
  The launch: every device's body proved, the cells funded and their invariants allocated for all devices at once, each
  device's argument and result entering the region whole and read back after it, the program runs from any memory with
  zero counters; and every final state has each device's argument unchanged and its result at the exchanged contents.
-/
import proofs.«900636_g7700000000000637_dist_a2a_v7x_xyz2x2x4_x_m8192_n1024_f32_1_alg».proof.Proof.Body
import proofs.«900636_g7700000000000637_dist_a2a_v7x_xyz2x2x4_x_m8192_n1024_f32_1_alg».proof.Proof.Launch1
import proofs.«900636_g7700000000000637_dist_a2a_v7x_xyz2x2x4_x_m8192_n1024_f32_1_alg».proof.Proof.Launch2

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What leaves the region on device c: its argument as launched, its result exchanged. -/
def Yc (c : Dev nD) : sProp 𝕄 := iprop(argPts m c ∗ outPts c (outFinal m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Harg, Hout⟩, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev]; · iexact Hlev
    isplitl [Harg]; · iexact Harg
    iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ Yc
  iintro ⟨Hv, HzL, HzS, HzV, Harg, Hout⟩
  isplitl [Harg Hout]
  · isplitl [Harg] <;> iassumption
  isplitl [HzL HzS HzV]
  · isplitl [HzL]; · iexact HzL
    isplitl [HzS] <;> iassumption
  iexact Hv

set_option maxRecDepth 8000 in
/-- At the compiled mesh of sixteen devices, for any float values, from any memory with zero counters: every weakly fair
    execution of @main terminates, nothing faulting, and every final state has each device's result at the exchanged
    contents and its argument as launched. -/
theorem run_main : θ_run defs (onTc (τ := τ) (main (F := F))) ⟨m, fun _ => 0, ρ⟩
    (fun r => ∀ c : Dev nD, r.2.mem ((c : Thread nD τ).loc main_v1) = outFinal m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_arg0) = xA m c ∧ s.mem ((c : Thread nD τ).loc main_v1) = outFinal m c)
    (hY := fun c s' => by
      unfold Yc
      iintro ⟨⟨Harg, Hout⟩, -, HSI⟩
      icombine HSI Harg gives %hx
      icombine HSI Hout gives %ho
      imodintro
      isplitr; · ipureintro; exact ⟨Buf.eq_of_forall_mem_univ hx, Buf.eq_of_forall_mem_univ ho⟩
      iexact HSI)
    (hQ := fun _ h c => ⟨(h c).2.2.2, (h c).2.2.1⟩)

/-- info: 'Cert.KernelIdeal.A2A.run_main' depends on axioms: [propext, Classical.choice, Quot.sound] -/
#guard_msgs in #print axioms run_main

end Cert.KernelIdeal.A2A

end
-- ==== Proof.KBasics.lean ====
/-
  The exchange's vocabulary on the mesh x=2, y=2, z=4 (device c at (c / 8, c / 4 % 2, c % 4)): every device's partner is the
  device whose x coordinate is flipped, c ± 8. Device c holds rows [8192·x, 8192·x + 8192) of the 16384×2048 array and must end
  holding columns [1024·x, 1024·x + 1024) of it. Its own rows of those columns it moves through VMEM into rows
  [8192·x, …) of its result; the partner's rows of those columns arrive from the partner into the other half of the result.
  Here: the partner map, the views, the four semaphore cells of a device, the contents every landing leaves, and the
  schedule of the cells' rounds with its tables.
-/
import proofs.«900636_g7700000000000637_dist_a2a_v7x_xyz2x2x4_x_m8192_n1024_f32_1_alg».proof.Proof.Gen.Kernel
import proofs.«900636_g7700000000000637_dist_a2a_v7x_xyz2x2x4_x_m8192_n1024_f32_1_alg».proof.Proof.Gen.Kernel.Skeleton
import proofs.«900636_g7700000000000637_dist_a2a_v7x_xyz2x2x4_x_m8192_n1024_f32_1_alg».proof.Proof.Gen.Kernel.Launch
import proofs.«900636_g7700000000000637_dist_a2a_v7x_xyz2x2x4_x_m8192_n1024_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partner -/

/-- The device with the x coordinate flipped. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- Both device chains of the kernel (the signal's and the transfer's) name the partner. -/
theorem dev1_eq (c : Dev nD) : (⟨k0_dev1 c, k0_dev1_lt c⟩ : Dev nD) = peer c := by
  apply Fin.ext; show k0_dev1 c = (c.val + 8) % 16; rw [k0_dev1_eq]; revert c; decide
theorem dev2_eq (c : Dev nD) : (⟨k0_dev2 c, k0_dev2_lt c⟩ : Dev nD) = peer c := by
  apply Fin.ext; show k0_dev2 c = (c.val + 8) % 16; rw [k0_dev2_eq]; revert c; decide

def flip : Dev nD ≃ Dev nD := ⟨peer, peer, peer_peer, peer_peer⟩

/-! ## The views -/

abbrev aM : Memref sig .tc .hbm S8192x2048 .f32 := Memref.whole main_arg0
abbrev oM : Memref sig .tc .hbm S16384x1024 .f32 := Memref.whole main_v1
abbrev vM : Memref sig .tc .vmem S8192x1024 .f32 := Memref.whole cc0_scratch0

/-- The partner's columns of device c's rows: what c sends. -/
abbrev srcR (c : Dev nD) : Memref sig .tc .hbm S8192x1024 .f32 :=
  aM.slice (Rect.unit (s := S8192x2048) (k0_off2 c) S8192x1024.size (k0_off2_inb c)) (fun _ => rfl)
/-- Device c's own columns of its rows: what c keeps. -/
abbrev srcL (c : Dev nD) : Memref sig .tc .hbm S8192x1024 .f32 :=
  aM.slice (Rect.unit (s := S8192x2048) (k0_off3 c) S8192x1024.size (k0_off3_inb c)) (fun _ => rfl)
/-- Rows [8192·x(c), 8192·x(c) + 8192) of a result: where c's own rows go on c, and where c's rows land on its partner. -/
abbrev dstM (c : Dev nD) : Memref sig .tc .hbm S8192x1024 .f32 :=
  oM.slice (Rect.unit (s := S16384x1024) (k0_off1 c) S8192x1024.size (k0_off1_inb c)) (fun _ => rfl)

/-! ## The cells -/

abbrev barS : Sem sig := (SemArray.scalar (sig.barrier 0 rfl) : Sems sig S_).sem
abbrev locS : DmaSems sig S_ := cc0_scratch1
abbrev sendS : DmaSems sig S_ := cc0_scratch2
abbrev recvS : DmaSems sig S_ := cc0_scratch3

abbrev barCell (c : Dev nD) : GSem nD τ sig := ((c : Thread nD τ), .reg barS)
abbrev locCell (c : Dev nD) : GSem nD τ sig := ((c : Thread nD τ), .dma locS.sem)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them; -/
abbrev osem : Fin 3 → SemLoc sig := fun | 0 => .dma locS.sem | 1 => .dma sendS.sem | 2 => .dma recvS.sem
/-- all four of a device's cells. -/
abbrev csem : Fin 4 → SemLoc sig := fun | 0 => .reg barS | 1 => .dma locS.sem | 2 => .dma sendS.sem | 3 => .dma recvS.sem
abbrev kcell (ck : Dev nD × Fin 4) : GSem nD τ sig := ((ck.1 : Thread nD τ), csem ck.2)

/-- What one transfer of an 8192×1024 block credits. -/
def N : ℕ := (vM : Memref sig .tc .vmem S8192x1024 .f32).view.dmaCredit
theorem N_pos : 0 < N := View.dmaCredit_pos _ (by decide)
/-- Every 8192×1024 view of a TensorCore buffer credits that much, whichever buffer it is a view of. -/
theorem amount_eq_N {sp : Space} (v : Memref sig .tc sp S8192x1024 .f32) (s : DmaSem sig) : v.view.amount (.dma s) = N := rfl
theorem credit_eq_N {sp : Space} (v : Memref sig .tc sp S8192x1024 .f32) : v.view.dmaCredit = N := rfl

/-! ## Contents -/

/-- Device c's block of the argument, as launched. -/
def xA (c : Dev nD) : Buf (Elt F) ((c : Thread nD τ).loc main_arg0) := m ((c : Thread nD τ).loc main_arg0)

/-- What the copy down leaves in VMEM: c's own columns of its rows. -/
def vLanded (c : Dev nD) : (cc0_scratch0 : Ref sig .tc).ty.Contents (Elt F) := (srcL c).view.read (Elt F) (xA m c)

/-- Device c's result after the exchange: the partner's rows written where the partner addresses them, c's own
    where c does (the two row ranges tile the result, so nothing of the launch contents is left). -/
def outFinal (c : Dev nD) : Buf (Elt F) ((c : Thread nD τ).loc main_v1) :=
  (dstM c).view.write (Elt F)
    ((dstM (peer c)).view.write (Elt F) (m ((c : Thread nD τ).loc main_v1)) ((srcR (peer c)).view.read (Elt F) (xA m (peer c))) Finset.univ)
    ((vM : Memref sig .tc .vmem S8192x1024 .f32).view.read (Elt F) (vLanded m c)) Finset.univ

/-- The points-to of a view's elements on a device's buffer. -/
abbrev pts {sp : Space} (v : Memref sig .tc sp S8192x1024 .f32) (t : Dev nD) (f : Buf (Elt F) (v.view.loc (t : Thread nD τ))) : sProp 𝕄 :=
  v.view.loc (t : Thread nD τ) ↦[v.view.set]{fullShare} f

end Cert.Kernel.A2A

end
-- ==== Proof.KProto.lean ====
/-
  The schedule of the exchange's semaphore cells: which duties each round of each cell has, how much each pays, and what
  each hands the cell's owner.
-/
import proofs.«900636_g7700000000000637_dist_a2a_v7x_xyz2x2x4_x_m8192_n1024_f32_1_alg».proof.Proof.KBasics

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule

  Each device's barrier cell has one duty, its partner's signal; what comes with it is the partner's half of ITS result
  that this device's transfer will write, and that the partner stands at round 0 of its receive cell. The send cell's one
  duty returns the sent columns, the receive cell's delivers the landed half of the result. The local cell serves two
  copies one after the other, so it has two rounds: the copy down delivers VMEM and returns the kept columns, the copy up
  delivers the device's own half of the result and returns VMEM. -/

/-- Device c's barrier payload: on its partner, the rows c's transfer writes, and the partner at round 0 of its receive cell. -/
def barPay (c : Dev nD) : sProp 𝕄 :=
  iprop((∃ f, pts (F := F) (dstM c) (peer c) f) ∗ reached ER (recvCell (peer c)) 0)
def recvPay (c : Dev nD) : sProp 𝕄 := pts (dstM (peer c)) c (outFinal m c)
def sendPay (c : Dev nD) : sProp 𝕄 := pts (srcR c) c (xA m c)
def downPay (c : Dev nD) : sProp 𝕄 := iprop(pts vM c (vLanded m c) ∗ pts (srcL c) c (xA m c))
def upPay (c : Dev nD) : sProp 𝕄 := iprop(pts (dstM c) c (outFinal m c) ∗ pts vM c (vLanded m c))

def sched : Rounds.Schedule (GSem nD τ sig) Unit 𝕄 where
  duties g r :=
    if g.1.2 = .tc ∧ ((r = 0 ∧ (g.2 = .reg barS ∨ g.2 = .dma sendS.sem ∨ g.2 = .dma recvS.sem)) ∨ (r ≤ 1 ∧ g.2 = .dma locS.sem))
    then {()} else ∅
  unitless _ := False
  amount g _ _ := if g.2 = .reg barS then 1 else N
  payload g r _ :=
    if g.2 = .reg barS then barPay g.1.1
    else if g.2 = .dma recvS.sem then recvPay m g.1.1
    else if g.2 = .dma sendS.sem then sendPay m g.1.1
    else if g.2 = .dma locS.sem then (if r = 0 then downPay m g.1.1 else upPay m g.1.1)
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = .dma recvS.sem then recvPay m g.1.1
    else if g.2 = .dma sendS.sem then sendPay m g.1.1
    else if g.2 = .dma locS.sem then (if r = 0 then downPay m g.1.1 else upPay m g.1.1)
    else iprop(emp))
  unfold barPay recvPay sendPay downPay upPay
  (repeat' split) <;> infer_instance

/-- A round with one duty expects that duty's amount: stated over an abstract schedule, so that nothing of a
    concrete one is ever unfolded to see it. -/
theorem expect_of_single {G D 𝕄' : Type} [DecidableEq G] [DecidableEq D] [URA 𝕄'] (Rd : Rounds.Schedule G D 𝕄') (g : G) (r : ℕ) (d : D) (n : ℕ)
    (hd : Rd.duties g r = {d}) (hn : Rd.amount g r d = n) : Rd.expect g r = n := by
  unfold Schedule.expect Schedule.amountOf; rw [hd, Finset.sum_singleton, hn]

section Sched
variable (c : Dev nD)

theorem loc_ne_bar : (SemLoc.dma locS.sem : SemLoc sig) ≠ .reg barS := fun h => by cases h
theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem loc_ne_recv : (SemLoc.dma locS.sem : SemLoc sig) ≠ .dma recvS.sem := by decide
theorem loc_ne_send : (SemLoc.dma locS.sem : SemLoc sig) ≠ .dma sendS.sem := by decide

omit [FloatOps F] in
theorem duties_bar : (sched (F := F) m).duties (barCell c) 0 = {()} := by
  dsimp only [sched]; exact if_pos ⟨rfl, .inl ⟨rfl, .inl rfl⟩⟩
omit [FloatOps F] in
theorem duties_send : (sched (F := F) m).duties (sendCell c) 0 = {()} := by
  dsimp only [sched]; exact if_pos ⟨rfl, .inl ⟨rfl, .inr (.inl rfl)⟩⟩
omit [FloatOps F] in
theorem duties_recv : (sched (F := F) m).duties (recvCell c) 0 = {()} := by
  dsimp only [sched]; exact if_pos ⟨rfl, .inl ⟨rfl, .inr (.inr rfl)⟩⟩
omit [FloatOps F] in
theorem duties_loc0 : (sched (F := F) m).duties (locCell c) 0 = {()} := by
  dsimp only [sched]; exact if_pos ⟨rfl, .inr ⟨Nat.zero_le _, rfl⟩⟩
omit [FloatOps F] in
theorem duties_loc1 : (sched (F := F) m).duties (locCell c) 1 = {()} := by
  dsimp only [sched]; exact if_pos ⟨rfl, .inr ⟨Nat.le_refl _, rfl⟩⟩
omit [FloatOps F] in
/-- Past their last round the cells have no duty: the three one-round cells from round 1 on, -/
theorem duties_later (g : GSem nD τ sig) (hg : g.2 ≠ .dma locS.sem) : ∀ r, 1 ≤ r → (sched (F := F) m).duties g r = ∅ :=
  fun r hr => by
    dsimp only [sched]
    exact if_neg fun h => h.2.elim (fun h' => by omega) (fun h' => hg h'.2)
omit [FloatOps F] in
/-- the local cell from round 2 on. -/
theorem duties_later2 (g : GSem nD τ sig) : ∀ r, 2 ≤ r → (sched (F := F) m).duties g r = ∅ :=
  fun r hr => by
    dsimp only [sched]
    exact if_neg fun h => h.2.elim (fun h' => by omega) (fun h' => by omega)

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar
omit [FloatOps F] in
theorem amount_loc (r : ℕ) (d : Unit) : (sched (F := F) m).amount (locCell c) r d = N := by dsimp only [sched]; exact if_neg loc_ne_bar

omit [FloatOps F] in
theorem expect_bar : (sched (F := F) m).expect (barCell c) 0 = 1 :=
  expect_of_single _ _ _ () _ (duties_bar m c) (amount_bar m c ())
omit [FloatOps F] in
theorem expect_send : (sched (F := F) m).expect (sendCell c) 0 = N :=
  expect_of_single _ _ _ () _ (duties_send m c) (amount_send m c ())
omit [FloatOps F] in
theorem expect_recv : (sched (F := F) m).expect (recvCell c) 0 = N :=
  expect_of_single _ _ _ () _ (duties_recv m c) (amount_recv m c ())
omit [FloatOps F] in
theorem expect_loc0 : (sched (F := F) m).expect (locCell c) 0 = N :=
  expect_of_single _ _ _ () _ (duties_loc0 m c) (amount_loc m c 0 ())
omit [FloatOps F] in
theorem expect_loc1 : (sched (F := F) m).expect (locCell c) 1 = N :=
  expect_of_single _ _ _ () _ (duties_loc1 m c) (amount_loc m c 1 ())

omit [FloatOps F] in
theorem payload_bar (d : Unit) : (sched (F := F) m).payload (barCell c) 0 d = barPay c := by dsimp only [sched]; rw [if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_recv (d : Unit) : (sched (F := F) m).payload (recvCell c) 0 d = recvPay m c := by
  dsimp only [sched]; rw [if_neg recv_ne_bar, if_pos rfl]
omit [FloatOps F] in
theorem payload_loc0 (d : Unit) : (sched (F := F) m).payload (locCell c) 0 d = downPay m c := by
  dsimp only [sched]; rw [if_neg loc_ne_bar, if_neg loc_ne_recv, if_neg loc_ne_send, if_pos rfl, if_pos rfl]
omit [FloatOps F] in
theorem payload_loc1 (d : Unit) : (sched (F := F) m).payload (locCell c) 1 d = upPay m c := by
  dsimp only [sched]; rw [if_neg loc_ne_bar, if_neg loc_ne_recv, if_neg loc_ne_send, if_pos rfl, if_neg (by decide)]

omit [FloatOps F] in
/-- The whole of a one-duty round, no duty taken yet, is that duty's payload. -/
theorem rest_bar : bigSep ((sched (F := F) m).duties (barCell c) 0 \ ∅) (fun d => (sched (F := F) m).payload (barCell c) 0 d) = barPay c := by
  rw [Finset.sdiff_empty, duties_bar, bigSep_singleton, payload_bar]
omit [FloatOps F] in
theorem rest_send : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv : bigSep ((sched (F := F) m).duties (recvCell c) 0 \ ∅) (fun d => (sched (F := F) m).payload (recvCell c) 0 d) = recvPay m c := by
  rw [Finset.sdiff_empty, duties_recv, bigSep_singleton, payload_recv]
omit [FloatOps F] in
theorem rest_loc0 : bigSep ((sched (F := F) m).duties (locCell c) 0 \ ∅) (fun d => (sched (F := F) m).payload (locCell c) 0 d) = downPay m c := by
  rw [Finset.sdiff_empty, duties_loc0, bigSep_singleton, payload_loc0]
omit [FloatOps F] in
theorem rest_loc1 : bigSep ((sched (F := F) m).duties (locCell c) 1 \ ∅) (fun d => (sched (F := F) m).payload (locCell c) 1 d) = upPay m c := by
  rw [Finset.sdiff_empty, duties_loc1, bigSep_singleton, payload_loc1]

omit [FloatOps F] in
theorem not_unitless (g : GSem nD τ sig) : ¬ (sched (F := F) m).unitless g := fun h => h

end Sched

attribute [sl_rounds] duties_bar duties_send duties_recv duties_loc0 duties_loc1 amount_bar amount_send amount_recv amount_loc
  expect_bar expect_send expect_recv expect_loc0 expect_loc1 payload_bar payload_send payload_recv payload_loc0 payload_loc1

-- from here on the schedule is read through its tables only
attribute [irreducible] sched

end Cert.Kernel.A2A

end
-- ==== Proof.KLevels.lean ====
/-
  What each device owes at launch and the order of the waits. A device pays twice into its partner's cells: one unit
  on the partner's barrier (its signal) and a block's credit on the partner's receive cell (its transfer). Its only wait
  while it still owes is the barrier wait, when the transfer's credit is outstanding; so barrier cells sit below receive
  cells, and nothing else needs an order.
-/
import proofs.«900636_g7700000000000637_dist_a2a_v7x_xyz2x2x4_x_m8192_n1024_f32_1_alg».proof.Proof.KBasics

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device c owes its partner's receive cell the block's credit and its partner's barrier one unit — summed so that
    the signal, which comes first, peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem recv_ne_bar' : (SemLoc.dma recvS.sem : SemLoc sig) ≠ .reg barS := fun h => by cases h

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar', if_pos rfl]; decide
      · rw [if_neg h] at hg; exact absurd hg (Nat.lt_irrefl 0))

end Cert.Kernel.A2A

end
-- ==== Proof.KLanding.lean ====
import proofs.«900636_g7700000000000637_dist_a2a_v7x_xyz2x2x4_x_m8192_n1024_f32_1_alg».proof.Proof.KBasics
import Idealize.ShloMosaic.Rules.PointsTo
import Idealize.ShloMosaic.Signature.View
import Idealize.ShloMosaic.Shape

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Writes through an arbitrary view, element by element -/

section Generic
variable {sg : RefSig} {κ : Kind} {sp : Space} {s : Shape} {e : EltTy} {Val : EltTy → Type}

/-- An unmasked write through a view leaves, under the view, the payload alone: two such writes of one payload
    agree there, whatever they were laid over. -/
theorem write_univ_agree_on_set (v : View sg κ sp s e) (f g : v.ty.Contents Val) (w : s.Idx → Val e) :
    ∀ i ∈ v.set, v.write Val f w Finset.univ i = v.write Val g w Finset.univ i := by
  intro i hi
  exact View.write_congr (fun _ _ _ => rfl) (fun h => absurd hi h)

/-- Contents that agree with `f` on a set of elements no element of the view lies in agree there with any unmasked
    write through the view over `f`. -/
theorem agree_write_univ_off_set (v : View sg κ sp s e) (I : Finset v.ty.Idx) (hd : Disjoint I v.set)
    (l f : v.ty.Contents Val) (w : s.Idx → Val e) (h : ∀ i ∈ I, l i = f i) :
    ∀ i ∈ I, l i = v.write Val f w Finset.univ i := by
  intro i hi
  rw [View.write_of_not_mem f w Finset.univ (Finset.disjoint_left.mp hd hi)]
  exact h i hi

end Generic

/-- The copy down fills VMEM whole: whatever it held, it ends at the kept columns. -/
theorem down_landing (c : Dev nD) (fd : Buf (Elt F) ((vM : Memref sig .tc .vmem S8192x1024 .f32).view.loc (c : Thread nD τ))) :
    (vM : Memref sig .tc .vmem S8192x1024 .f32).view.write (Elt F) fd ((srcL c).view.read (Elt F) (xA m c)) Finset.univ = vLanded m c := by
  unfold vLanded
  exact View.write_whole_univ cc0_scratch0 fd _

/-! ## The two row ranges of a result -/

/-- A device and its partner sit at different x. -/
theorem x_cases (c : Dev nD) :
    (c.val / 8 = 0 ∧ (peer c).val / 8 = 1) ∨ (c.val / 8 = 1 ∧ (peer c).val / 8 = 0) := by
  revert c; decide

/-- The elements of a result under rows [8192·x(c), 8192·x(c) + 8192), as a rectangle of the result's shape. -/
theorem dst_set (c : Dev nD) :
    (dstM c).view.set = (Rect.unit (s := S16384x1024) (k0_off1 c) S8192x1024.size (k0_off1_inb c)).set :=
  View.set_slice_whole main_v1 _

/-- Rows [8192·x(peer c), …) and rows [8192·x(c), …) of a result share no element. -/
theorem dst_disjoint (c : Dev nD) : Disjoint (dstM (peer c)).view.set (dstM c).view.set := by
  rw [dst_set, dst_set]
  apply Rect.unit_disjoint 0
  rw [k0_off1_eq, k0_off1_eq]
  rcases x_cases c with ⟨h, h'⟩ | ⟨h, h'⟩ <;> rw [h, h'] <;> decide

/-- On the rows the copy up writes, what it leaves is the final result, whatever the rows held. -/
theorem up_landing (c : Dev nD) (fd : Buf (Elt F) ((dstM c).view.loc (c : Thread nD τ))) :
    pts (F := F) (dstM c) c ((dstM c).view.write (Elt F) fd ((vM : Memref sig .tc .vmem S8192x1024 .f32).view.read (Elt F) (vLanded m c)) Finset.univ)
      = pts (dstM c) c (outFinal m c) := by
  unfold outFinal
  exact pointsTo_congr (write_univ_agree_on_set (dstM c).view fd _ _)

/-- On the rows the peer's transfer writes on device c, what it leaves is the final result, whatever the rows held. -/
theorem recv_landing (c : Dev nD) (fd : Buf (Elt F) ((dstM (peer c)).view.loc (c : Thread nD τ))) :
    pts (F := F) (dstM (peer c)) c ((dstM (peer c)).view.write (Elt F) fd ((srcR (peer c)).view.read (Elt F) (xA m (peer c))) Finset.univ)
      = pts (dstM (peer c)) c (outFinal m c) := by
  unfold outFinal
  exact pointsTo_congr (agree_write_univ_off_set (dstM c).view (dstM (peer c)).view.set (dst_disjoint c) _ _ _
    (write_univ_agree_on_set (dstM (peer c)).view fd _ _))

/-! ## The argument's two column ranges; the splits -/

/-- The elements of the argument block under the sent columns, -/
theorem srcR_set (c : Dev nD) :
    (srcR c).view.set = (Rect.unit (s := S8192x2048) (k0_off2 c) S8192x1024.size (k0_off2_inb c)).set :=
  View.set_slice_whole main_arg0 _

/-- and under the kept columns, as rectangles of the block's shape. -/
theorem srcL_set (c : Dev nD) :
    (srcL c).view.set = (Rect.unit (s := S8192x2048) (k0_off3 c) S8192x1024.size (k0_off3_inb c)).set :=
  View.set_slice_whole main_arg0 _

/-- Columns [1024·(1 − x), …) and columns [1024·x, …) share no element. -/
theorem src_disjoint (c : Dev nD) : Disjoint (srcR c).view.set (srcL c).view.set := by
  rw [srcR_set, srcL_set]
  apply Rect.unit_disjoint 1
  rw [k0_off2_eq, k0_off3_eq]
  rcases x_cases c with ⟨h, -⟩ | ⟨h, -⟩ <;> rw [h] <;> decide

/-- The two column ranges are all 2048 columns. -/
theorem src_union (c : Dev nD) : (srcR c).view.set ∪ (srcL c).view.set = Finset.univ := by
  rw [srcR_set, srcL_set]
  ext i
  rw [Finset.mem_union, Rect.mem_set_unit, Rect.mem_set_unit, k0_off2_eq, k0_off3_eq]
  have h0 : (i 0).val < 8192 := (i 0).isLt
  have h1 : (i 1).val < 2048 := (i 1).isLt
  simp only [Finset.mem_univ, iff_true, Fin.forall_fin_two]
  rcases x_cases c with ⟨h, -⟩ | ⟨h, -⟩ <;> rw [h] <;>
    simp only [Matrix.cons_val_zero, Matrix.cons_val_one, Matrix.head_cons] <;> omega

/-- The two row ranges are all 16384 rows. -/
theorem dst_union (c : Dev nD) : (dstM c).view.set ∪ (dstM (peer c)).view.set = Finset.univ := by
  rw [dst_set, dst_set]
  ext i
  rw [Finset.mem_union, Rect.mem_set_unit, Rect.mem_set_unit, k0_off1_eq, k0_off1_eq]
  have h0 : (i 0).val < 16384 := (i 0).isLt
  have h1 : (i 1).val < 1024 := (i 1).isLt
  simp only [Finset.mem_univ, iff_true, Fin.forall_fin_two]
  rcases x_cases c with ⟨h, h'⟩ | ⟨h, h'⟩ <;> rw [h, h'] <;>
    simp only [Matrix.cons_val_zero, Matrix.cons_val_one, Matrix.head_cons] <;> omega

/-- The argument block is its sent columns and its kept columns. -/
theorem arg_split (c : Dev nD) (f : Buf (Elt F) ((c : Thread nD τ).loc main_arg0)) :
    ((((c : Thread nD τ).loc main_arg0) ↦{fullShare} f : sProp 𝕄)) ⊣⊢ iprop(pts (srcR c) c f ∗ pts (srcL c) c f) := by
  have h := pointsTo_union (nD := nD) (τ := τ) (sig := sig) (Ix := Unit) (Val := Elt F) (Name := ℕ) (U := UU) (Lvl := ℕ)
    (ℓ := (c : Thread nD τ).loc main_arg0) (q := fullShare) (f := f) (src_disjoint c)
  rw [src_union c] at h
  exact h

/-- The result is the rows the device writes itself and the rows its peer writes. -/
theorem out_split (c : Dev nD) (f : Buf (Elt F) ((c : Thread nD τ).loc main_v1)) :
    ((((c : Thread nD τ).loc main_v1) ↦{fullShare} f : sProp 𝕄)) ⊣⊢ iprop(pts (dstM c) c f ∗ pts (dstM (peer c)) c f) := by
  have h := pointsTo_union (nD := nD) (τ := τ) (sig := sig) (Ix := Unit) (Val := Elt F) (Name := ℕ) (U := UU) (Lvl := ℕ)
    (ℓ := (c : Thread nD τ).loc main_v1) (q := fullShare) (f := f) (Disjoint.symm (dst_disjoint c))
  rw [dst_union c] at h
  exact h

end Cert.Kernel.A2A

end
-- ==== Proof.KData.lean ====
/-
  What one device's body starts from and ends with. Besides the cells' invariants, its positions and the tokens of the
  duties it pays, a device holds its argument block and its result whole; the body cuts each into the two halves the
  exchange moves separately and joins them again at the end, the result then at the exchanged contents.
-/
import proofs.«900636_g7700000000000637_dist_a2a_v7x_xyz2x2x4_x_m8192_n1024_f32_1_alg».proof.Proof.KProto
import proofs.«900636_g7700000000000637_dist_a2a_v7x_xyz2x2x4_x_m8192_n1024_f32_1_alg».proof.Proof.KLevels
import proofs.«900636_g7700000000000637_dist_a2a_v7x_xyz2x2x4_x_m8192_n1024_f32_1_alg».proof.Proof.KLanding

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads that cross to the partner, with sender and receiver named apart

  Paying into the partner's cell means speaking of the partner's partner; with both devices as arguments that is a
  rewrite of one argument. -/

def barPayAt (s p : Dev nD) : sProp 𝕄 := iprop((∃ f, pts (F := F) (dstM s) p f) ∗ reached ER (recvCell p) 0)
def recvPayAt (s p : Dev nD) : sProp 𝕄 := pts (dstM s) p (outFinal m p)

omit [FloatOps F] in
theorem barPay_eq (c : Dev nD) : barPay (F := F) c = barPayAt c (peer c) := rfl
omit [FloatOps F] in
theorem barPay_peer (c : Dev nD) : barPay (F := F) (peer c) = barPayAt (peer c) c := by
  rw [barPay_eq]; exact congrArg (barPayAt (peer c)) (peer_peer c)
theorem recvPay_eq (c : Dev nD) : recvPay m c = recvPayAt m (peer c) c := rfl
theorem recvPay_peer (c : Dev nD) : recvPay m (peer c) = recvPayAt m c (peer c) := by
  rw [recvPay_eq]; exact congrArg (fun s => recvPayAt m s (peer c)) (peer_peer c)

/-- What the transfer from s lands on its partner p is p's final rows there. -/
theorem recv_landing_at (s p : Dev nD) (hs : s = peer p) (fd : Buf (Elt F) ((dstM s).view.loc (p : Thread nD τ))) :
    pts (F := F) (dstM s) p ((dstM s).view.write (Elt F) fd ((srcR s).view.read (Elt F) (xA m s)) Finset.univ) = recvPayAt m s p := by
  subst hs; exact recv_landing m p fd

/-! ## The ghost state -/

/-- The cells' invariants device c's body opens, under the names the launch allocated them at: its own four, and its
    partner's barrier and receive cells (its signal, its transfer). -/
def invs (K : Dev nD × Fin 4 → ℕ) (c : Dev nD) : sProp 𝕄 :=
  iprop(cellInv ER (sched m) (K (c, 0)) (barCell c) ∗ cellInv ER (sched m) (K (c, 1)) (locCell c)
    ∗ cellInv ER (sched m) (K (c, 2)) (sendCell c) ∗ cellInv ER (sched m) (K (c, 3)) (recvCell c)
    ∗ cellInv ER (sched m) (K (peer c, 0)) (barCell (peer c)) ∗ cellInv ER (sched m) (K (peer c, 3)) (recvCell (peer c)))

instance invs_persistent (K : Dev nD × Fin 4 → ℕ) (c : Dev nD) : BI.Persistent (invs m K c) := by unfold invs; infer_instance

/-- Device c's share of the exchange's ghost state: the invariants; its positions at round 0 of its four cells; that
    round 0 is reached of the cells it pays and of its own; the five duty tokens it pays with — its partner's barrier and
    receive duties, its own two local duties and its send duty. -/
def ghost (K : Dev nD × Fin 4 → ℕ) (c : Dev nD) : sProp 𝕄 :=
  iprop(invs m K c
    ∗ atPos ER (barCell c) 0 ∅ 0 ∗ atPos ER (locCell c) 0 ∅ 0 ∗ atPos ER (sendCell c) 0 ∅ 0 ∗ atPos ER (recvCell c) 0 ∅ 0
    ∗ reached ER (barCell (peer c)) 0 ∗ reached ER (recvCell (peer c)) 0 ∗ reached ER (locCell c) 0 ∗ reached ER (sendCell c) 0 ∗ reached ER (recvCell c) 0
    ∗ dutyTok ER (barCell (peer c)) 0 () ∗ dutyTok ER (recvCell (peer c)) 0 () ∗ dutyTok ER (locCell c) 0 () ∗ dutyTok ER (locCell c) 1 ()
    ∗ dutyTok ER (sendCell c) 0 ())

abbrev argPts (c : Dev nD) : sProp 𝕄 := ((c : Thread nD τ).loc main_arg0) ↦{fullShare} xA m c
abbrev outPts (c : Dev nD) (f : Buf (Elt F) ((c : Thread nD τ).loc main_v1)) : sProp 𝕄 := ((c : Thread nD τ).loc main_v1) ↦{fullShare} f
abbrev vmPts (c : Dev nD) (f : Buf (Elt F) ((c : Thread nD τ).loc cc0_scratch0)) : sProp 𝕄 := ((c : Thread nD τ).loc cc0_scratch0) ↦{fullShare} f

/-- What device c's body starts from besides VMEM: the ghost state at some names, the credit of its two waits others pay
    (one unit on its barrier, a block on its receive cell), the levels, and its argument and result whole as launched. -/
def start (c : Dev nD) : sProp 𝕄 :=
  iprop((∃ K, ghost m K c) ∗ cred (tallyAt (barCell c) () 1) ∗ cred (tallyAt (recvCell c) () N) ∗ levAts L lv
    ∗ argPts m c ∗ outPts c (m ((c : Thread nD τ).loc main_v1)))

def Φ₀ (c : Dev nD) : sProp 𝕄 := iprop(start m c ∗ ∃ f, vmPts (F := F) c f)
/-- After the body: VMEM at something, the three own cells at zero and closed, the argument as launched, the result
    exchanged. -/
def Φ₁ (c : Dev nD) : sProp 𝕄 :=
  iprop((∃ f, vmPts (F := F) c f) ∗ semVal (locCell c) 0 ∗ semVal (sendCell c) 0 ∗ semVal (recvCell c) 0
    ∗ argPts m c ∗ outPts c (outFinal m c))

/-- The pipeline's proof data: no window, one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.A2A

end
-- ==== Proof.KBody.lean ====
/-
  One device's body, stepped from the ghost state to the exchanged result: the signal to the partner hands it the half of
  this device's result the partner will write; the barrier wait brings the partner's half of ITS result; the transfer pays
  the partner's receive cell; the two local copies run one after the other on the local cell's two rounds; the send and
  receive waits bring back the sent columns and the landed rows; the three own cells close; the halves are joined.
-/
import proofs.«900636_g7700000000000637_dist_a2a_v7x_xyz2x2x4_x_m8192_n1024_f32_1_alg».proof.Proof.KData

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(emp) := by
  rw [show (Finset.univ : Finset (Fin cfg0.W)) = ∅ from rfl]; exact BI.bigSep_empty

omit [FloatOps F] in
theorem vm_set : (vM : Memref sig .tc .vmem S8192x1024 .f32).view.set = Finset.univ := View.set_whole _
omit [FloatOps F] in
theorem vmPts_eq (c : Dev nD) (f : Buf (Elt F) ((c : Thread nD τ).loc cc0_scratch0)) : pts (F := F) vM c f = vmPts c f := by
  unfold pts vmPts; rw [vm_set]

section Body

variable (K : Dev nD × Fin 4 → ℕ)

/-- The transfer rule at the exchange's cells, the transfer addressed to n = the partner (substituted, not rewritten). -/
theorem wp_send_x (c n : Dev nD) (hn : n = peer c) {hsc : (dstM c : Memref sig (Dev.tc n : Thread nD τ).2.kind .hbm S8192x1024 .f32).view.ref.isScScratch = false}
    {hsrc : (srcR c).view.WordExact} {hdst : (dstM c).view.WordExact}
    {hsem : DmaTarget.Typed .hbm (.dma recvS.sem) (.remote (Dev.tc n : Thread nD τ) (dstM c) (.dma sendS.sem) hsc)}
    {α : Type} {Q : α → sProp 𝕄} {k : PUnit → Prog (TpuEff nD τ sig (Elt F) Λ₀ .tc) α}
    (fn : Buf (Elt F) ((dstM c).view.loc (peer c : Thread nD τ))) (W : Waits sig Unit) :
    iprop(cellInv ER (sched m) (K (c, 2)) (sendCell c) ∗ cellInv ER (sched m) (K (peer c, 3)) (recvCell (peer c))
        ∗ pts (srcR c) c (xA m c) ∗ pts (dstM c) (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcR c) (.remote (Dev.tc n : Thread nD τ) (dstM c) (.dma sendS.sem) hsc) (.dma recvS.sem) hsrc hdst hsem) k) Q) := by
  subst hn
  exact Rounds.wp_send_pointsTo 𝒱₀ ER (sched m) (c : Thread nD τ) none (c' := (peer c : Thread nD τ)) (src := srcR c) (dst := dstM c)
    (κ₁ := K (c, 2)) (κ₂ := K (peer c, 3))
    (r₁ := 0) (r₂ := 0) (d₁ := ()) (d₂ := ()) (fs := xA m c) (fd := fn)
    (by rw [duties_send]; exact Finset.mem_singleton_self _) (by rw [duties_recv]; exact Finset.mem_singleton_self _)
    () () N (amount_eq_N _ _) (amount_send m c ()) (amount_recv m (peer c) ()) 0 (by rw [zero_add]) (W := W)
    (by rw [payload_send]; exact BI.Entails.refl _)
    (by rw [payload_recv, recvPay_peer]; exact Entails.of_eq (recv_landing_at m c (peer c) (peer_peer c).symm fn))

def bodyPre (c : Dev nD) : sProp 𝕄 :=
  iprop((ghost m K c ∗ cred (tallyAt (barCell c) () 1) ∗ cred (tallyAt (recvCell c) () N) ∗ levAts L lv
      ∗ argPts m c ∗ outPts c (m ((c : Thread nD τ).loc main_v1)) ∗ ∃ f, vmPts (F := F) c f)
    ∗ (dats m 0 c).owesAt () t₀.castSucc)

def bodyPost (c : Dev nD) : sProp 𝕄 := iprop(Φ₁ m c ∗ (dats m 0 c).owesAt () t₀.succ)

set_option maxHeartbeats 1600000 in
/-- The body, from bodyPre to bodyPost, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIloc, #HIsnd, #HIrcv, #HIbarP, #HIrcvP⟩, HatB, HatL, HatS, HatV, #HrBP, #HrVP, #HrL, #HrS, #HrV, HtBP, HtVP, HtL0, HtL1, HtS⟩,
    HcB, HcV, #Hlev, Harg, Hout, ⟨%fv, Hvm⟩⟩, Ho⟩, Hk⟩
  unfold Dat.owesAt Pipeline.owesWithin
  icases Ho with ⟨%W, %hW, HO⟩
  rw [show (dats m 0 c).owed t₀.castSucc = O₀ c from rfl]
  simp only [dev1_eq c]
  -- the argument and the result, cut in their halves
  ihave Harg' := (arg_split (F := F) c (xA m c)).1 $$ Harg
  icases Harg' with ⟨HsrcR, HsrcL⟩
  ihave Hout' := (out_split (F := F) c (m ((c : Thread nD τ).loc main_v1))).1 $$ Hout
  icases Hout' with ⟨HdstL, HdstR⟩
  -- the signal to the partner's barrier: with it the rows of this device's result that the partner's transfer writes,
  -- and that this device stands at round 0 of its receive cell
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (O₁ c) rfl)
    $$ [HO HtBP HdstR]
  · isplitr; · iexact HIbarP
    isplitl [HO]; · iexact HO
    isplitl [HtBP]; · iexact HtBP
    isplitl [HdstR]
    · rw [payload_bar, barPay_peer]; unfold barPayAt
      isplitl [HdstR]; · iexists _; iexact HdstR
      iexact HrV
    · iexact HrBP
  iintro HO
  -- the wait on the own barrier, owing the partner's receive credit: the partner's rows for this device's transfer come with it
  unfold O₁
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq ((rest_bar m c).trans (barPay_eq c))) $$ Hpay
  unfold barPayAt
  icases Hp with ⟨⟨%fn, HdstP⟩, #HrVP'⟩
  -- the transfer of the partner's columns into the partner's result
  iapply (wp_send_x m K c _ (dev2_eq c) fn (insert (SemLoc.reg barS, ()) W)) $$ [HsrcR HdstP HO HtS HtVP]
  · isplitr; · iexact HIsnd
    isplitr; · iexact HIrcvP
    isplitl [HsrcR]; · iexact HsrcR
    isplitl [HdstP]; · iexact HdstP
    isplitl [HO]; · iexact HO
    isplitl [HtS]; · iexact HtS
    isplitr; · iexact HrS
    isplitl [HtVP]; · iexact HtVP
    iexact HrVP
  iintro ⟨HcS, HO⟩
  -- the copy of the kept columns down into VMEM: round 0 of the local cell
  ihave Hvm' := (Entails.of_eq (vmPts_eq (F := F) c fv).symm) $$ Hvm
  iapply (Rounds.wp_copy_pointsTo 𝒱₀ ER (sched m) (c : Thread nD τ) none (src := srcL c) (dst := vM) (κ := K (c, 1)) (r := 0) (d := ())
      (fs := xA m c) (fd := fv)
      (by rw [duties_loc0]; exact Finset.mem_singleton_self _) () N (amount_eq_N _ _) (amount_loc m c 0 ())
      (by rw [payload_loc0]; unfold downPay; rw [down_landing])) $$ [HsrcL Hvm' HtL0]
  · isplitr; · iexact HIloc
    isplitl [HsrcL]; · iexact HsrcL
    isplitl [Hvm']; · iexact Hvm'
    isplitl [HtL0]; · iexact HtL0
    iexact HrL
  iintro HcL
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      ((Nat.zero_add _).trans ((credit_eq_N _).trans (expect_loc0 m c).symm))) $$ [HcL HO HatL]
  · isplitr; · iexact HIloc
    isplitl [HcL]; · iexact HcL
    isplitl [HO]; · iexact HO
    isplitr; · rw [MayWait_zero]; iempintro
    iexact HatL
  iintro ⟨HO, HatL, #HrL1, Hpay⟩
  ihave Hp := (Entails.of_eq (rest_loc0 m c)) $$ Hpay
  unfold downPay
  icases Hp with ⟨Hvm', HsrcL⟩
  -- the copy up from VMEM into this device's own rows of its result: round 1 of the local cell
  iapply (Rounds.wp_copy_pointsTo 𝒱₀ ER (sched m) (c : Thread nD τ) none (src := vM) (dst := dstM c) (κ := K (c, 1)) (r := 1) (d := ())
      (fs := vLanded m c) (fd := m ((c : Thread nD τ).loc main_v1))
      (by rw [duties_loc1]; exact Finset.mem_singleton_self _) () N (amount_eq_N _ _) (amount_loc m c 1 ())
      (by rw [payload_loc1]; unfold upPay
          exact Entails.of_eq (congrArg (fun X => iprop(X ∗ pts vM c (vLanded m c))) (up_landing m c _)))) $$ [Hvm' HdstL HtL1]
  · isplitr; · iexact HIloc
    isplitl [Hvm']; · iexact Hvm'
    isplitl [HdstL]; · iexact HdstL
    isplitl [HtL1]; · iexact HtL1
    iexact HrL1
  iintro HcL
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma locS.sem, ()) (insert (SemLoc.reg barS, ()) W)) (R := 0 + 1) (m := 0) (T := ∅)
      ((Nat.zero_add _).trans ((credit_eq_N _).trans (expect_loc1 m c).symm))) $$ [HcL HO HatL]
  · isplitr; · iexact HIloc
    isplitl [HcL]; · iexact HcL
    isplitl [HO]; · iexact HO
    isplitr; · rw [MayWait_zero]; iempintro
    iexact HatL
  iintro ⟨HO, HatL, -, Hpay⟩
  ihave Hp := (Entails.of_eq (rest_loc1 m c)) $$ Hpay
  unfold upPay
  icases Hp with ⟨HdstL, Hvm'⟩
  -- the wait on the send cell: the sent columns back
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma locS.sem, ()) (insert (SemLoc.dma locS.sem, ()) (insert (SemLoc.reg barS, ()) W))) (R := 0) (m := 0) (T := ∅)
      ((Nat.zero_add _).trans ((credit_eq_N _).trans (expect_send m c).symm))) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HsrcR := (Entails.of_eq (rest_send m c)) $$ Hpay
  unfold sendPay
  -- the wait on the receive cell: the rows the partner wrote, at their final contents
  iapply (Rounds.wp_wait_rest_token 𝒱₀ ER (sched m) (c : Thread nD τ) none (κ := K (c, 3))
      (wpE_waitDma2_eq 𝒱₀ (c : Thread nD τ) none Set.univ) (Set.mem_univ _) () (O := 0)
      (W := insert (SemLoc.dma sendS.sem, ()) (insert (SemLoc.dma locS.sem, ()) (insert (SemLoc.dma locS.sem, ()) (insert (SemLoc.reg barS, ()) W)))) (R := 0) (m := 0) (T := ∅)
      ((Nat.zero_add _).trans ((credit_eq_N _).trans (expect_recv m c).symm))) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HdstR := (Entails.of_eq ((rest_recv m c).trans (recvPay_eq m c))) $$ Hpay
  unfold recvPayAt
  -- the three own cells close: their counters at zero are the core's again
  imod (Rounds.cell_close ER (sched m) (Set.mem_univ (K (c, 1))) (not_unitless m _) (R := 0 + 1 + 1) (duties_later2 m (locCell c))) $$ [HatL] with HzL
  · isplitr; · iexact HIloc
    iexact HatL
  imod (Rounds.cell_close ER (sched m) (Set.mem_univ (K (c, 2))) (not_unitless m _) (R := 0 + 1) (duties_later m (sendCell c) loc_ne_send.symm)) $$ [HatS] with HzS
  · isplitr; · iexact HIsnd
    iexact HatS
  imod (Rounds.cell_close ER (sched m) (Set.mem_univ (K (c, 3))) (not_unitless m _) (R := 0 + 1) (duties_later m (recvCell c) loc_ne_recv.symm)) $$ [HatV] with HzV
  · isplitr; · iexact HIrcv
    iexact HatV
  rw [wp_ret]; imodintro
  iapply Hk
  unfold bodyPost Φ₁ Dat.owesAt Pipeline.owesWithin
  rw [show (dats m 0 c).owed t₀.succ = 0 from rfl]
  isplitr [HO]
  · isplitl [Hvm']; · iexists (vLanded m c); rw [← vmPts_eq]; iexact Hvm'
    isplitl [HzL]; · iexact HzL
    isplitl [HzS]; · iexact HzS
    isplitl [HzV]; · iexact HzV
    isplitl [HsrcR HsrcL]
    · iapply (arg_split (F := F) c (xA m c)).2
      isplitl [HsrcR] <;> iassumption
    · iapply (out_split (F := F) c (outFinal m c)).2
      isplitl [HdstL] <;> iassumption
  · iexists (insert (SemLoc.dma recvS.sem, ()) (insert (SemLoc.dma sendS.sem, ()) (insert (SemLoc.dma locS.sem, ()) (insert (SemLoc.dma locS.sem, ()) (insert (SemLoc.reg barS, ()) W)))))
    isplitr; · ipureintro; exact fun _ _ => Or.inl trivial
    iexact HO

/-- The library's body obligation on device c: the one point, no window. -/
theorem body_obligation (c : Dev nD) : Pipeline.BodyObligationLoose (dats (F := F) m 0 c) (defs₀ (F := F)) 𝒱₀ () Set.univ := fun t => by
  rw [fin_N t]
  rw [bigSep_W, bigSep_W]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      (Memref.whole cc0_scratch0) (Memref.isWhole_whole _) cc0_scratch1 cc0_scratch2 cc0_scratch3)
    (fun _ => iprop(Φ₁ m c ∗ (dats m 0 c).owesAt () t₀.succ ∗ emp))
  unfold Φ₀ start
  iintro ⟨⟨⟨⟨%K, Hg⟩, H1, H2, H3, H4, H5⟩, Hv⟩, Ho, -⟩
  iapply (sound_body m K c fun _ => iprop(Φ₁ m c ∗ (dats m 0 c).owesAt () t₀.succ ∗ emp))
  unfold bodyPre bodyPost
  isplitr []
  · isplitr [Ho]
    · isplitl [Hg]; · iexact Hg
      isplitl [H1]; · iexact H1
      isplitl [H2]; · iexact H2
      isplitl [H3]; · iexact H3
      isplitl [H4]; · iexact H4
      isplitl [H5]; · iexact H5
      iexact Hv
    · iexact Ho
  · iintro ⟨H, Ho⟩
    isplitl [H]; · iexact H
    isplitl [Ho]; · iexact Ho
    iempintro

end Body

end Cert.Kernel.A2A

end
-- ==== Proof.KLaunch1.lean ====
/-
  Funding the exchange's cells and allocating their invariants, for all sixteen devices at once. The launch element is
  the round state at zero of every device's four cells, each cell's position and reached-mark at round 0, and a token per
  duty: five per device (the local cell has two rounds). Each cell's counter at zero and its round state make its
  invariant's body; once every invariant has a name, the tokens of the duties a device's PARTNER pays — its barrier's and
  its receive cell's — cross to the partner along the involution, and each device is left with the ghost state its body
  starts from.
-/
import proofs.«900636_g7700000000000637_dist_a2a_v7x_xyz2x2x4_x_m8192_n1024_f32_1_alg».proof.Proof.KData
import Idealize.ShloMosaic.Lib.Pipeline.Launch
import Idealize.ShloMosaic.Lib.Pipeline.Kit

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, enumerated -/

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: barrier round 0, local rounds 0 and 1, send round 0, receive round 0. -/
abbrev tokOf (cj : Dev nD × Fin 5) : GSem nD τ sig × ℕ × Unit := match cj.2 with
  | 0 => (barCell cj.1, 0, ()) | 1 => (locCell cj.1, 0, ()) | 2 => (locCell cj.1, 1, ()) | 3 => (sendCell cj.1, 0, ()) | 4 => (recvCell cj.1, 0, ())
theorem tokOf_injective : Function.Injective (tokOf : Dev nD × Fin 5 → GSem nD τ sig × ℕ × Unit) := by
  rintro ⟨c, j⟩ ⟨c', j'⟩ h
  have h1 : c = c' := by
    have := congrArg (fun x : GSem nD τ sig × ℕ × Unit => x.1.1.1) h
    fin_cases j <;> fin_cases j' <;> exact this
  subst h1
  have : j = j' := by
    fin_cases j <;> fin_cases j' <;> first | rfl | exact absurd (congrArg (fun x : GSem nD τ sig × ℕ × Unit => (x.1.2, x.2.1)) h) (fun h' => by cases h')
  subst this; rfl
def ringToks : Finset (GSem nD τ sig × ℕ × Unit) := Finset.univ.map ⟨tokOf, tokOf_injective⟩

/-- The launch element: the pipeline library's (no window, so no cell of its own) and the exchange's. -/
def u₀ : UU := (initOf (Pipeline.cells cfgs cellOf_inj) (Pipeline.launchToks cfgs cellOf_inj), initOf ringCells ringToks)

/-- The duty tokens of device c's own cells. -/
def toks (c : Dev nD) : sProp 𝕄 := iprop(dutyTok ER (barCell c) 0 () ∗ dutyTok ER (locCell c) 0 () ∗ dutyTok ER (locCell c) 1 () ∗ dutyTok ER (sendCell c) 0 () ∗ dutyTok ER (recvCell c) 0 ())

/-- What the launch element deals device c. -/
def G (c : Dev nD) : sProp 𝕄 := iprop((bigSep Finset.univ fun k : Fin 4 => roundState ER (sched m) (kcell (c, k)) 0) ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 4 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin5]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The local, send and receive semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (locCell c) 0 ∗ semVal (sendCell c) 0 ∗ semVal (recvCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Allocating the invariants -/

omit [FloatOps F] in
/-- A device's four counters at zero, in the cells' order. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HL, HS, HV⟩, HB⟩
  isplitl [HB]; · iexact HB
  isplitl [HL]; · iexact HL
  isplitl [HS] <;> iassumption

omit [FloatOps F] in
/-- One device's four invariants, each at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the ghost state -/

/-- What every device may read: all sixty-four invariants at their names, and that round 0 of every cell is reached. -/
def records (K : Dev nD × Fin 4 → ℕ) : sProp 𝕄 :=
  iprop((bigSep Finset.univ fun ck : Dev nD × Fin 4 => cellInv ER (sched m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (sched m) (K ck) (kcell ck) : sProp 𝕄)) ⊢ cellInv ER (sched m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device c: its positions, and the tokens of the duties IT pays — its partner's barrier and receive
    duties, its own two local duties and its send duty. -/
def payToks (c : Dev nD) : sProp 𝕄 :=
  iprop(dutyTok ER (barCell (peer c)) 0 () ∗ dutyTok ER (recvCell (peer c)) 0 () ∗ dutyTok ER (locCell c) 0 () ∗ dutyTok ER (locCell c) 1 ()
    ∗ dutyTok ER (sendCell c) 0 ())
def linear (c : Dev nD) : sProp 𝕄 :=
  iprop((atPos ER (barCell c) 0 ∅ 0 ∗ atPos ER (locCell c) 0 ∅ 0 ∗ atPos ER (sendCell c) 0 ∅ 0 ∗ atPos ER (recvCell c) 0 ∅ 0) ∗ payToks c)

omit [FloatOps F] in
theorem ghost_intro (K : Dev nD × Fin 4 → ℕ) (c : Dev nD) : iprop(records m K ∗ linear c) ⊢ G' m c := by
  unfold records linear payToks G' ghost invs
  iintro ⟨⟨#HI, #HR⟩, ⟨HaB, HaL, HaS, HaV⟩, HtB, HtV, HtL0, HtL1, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 3)); iexact HI
  isplitl [HaB]; · iexact HaB
  isplitl [HaL]; · iexact HaL
  isplitl [HaS]; · iexact HaS
  isplitl [HaV]; · iexact HaV
  isplitr; · iapply (reached_at (F := F) (peer c, 0)); iexact HR
  isplitr; · iapply (reached_at (F := F) (peer c, 3)); iexact HR
  isplitr; · iapply (reached_at (F := F) (c, 1)); iexact HR
  isplitr; · iapply (reached_at (F := F) (c, 2)); iexact HR
  isplitr; · iapply (reached_at (F := F) (c, 3)); iexact HR
  isplitl [HtB]; · iexact HtB
  isplitl [HtV]; · iexact HtV
  isplitl [HtL0]; · iexact HtL0
  isplitl [HtL1]; · iexact HtL1
  iexact HtS

omit [FloatOps F] in
/-- The tokens dealt across the pairs: a device's barrier token and its receive token go to its partner, which pays those
    duties; the two local tokens and the send token stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv flip (fun c : Dev nD => (dutyTok ER (barCell c) 0 () : sProp 𝕄)),
    bigSep_univ_equiv flip (fun c : Dev nD => (dutyTok ER (recvCell c) 0 () : sProp 𝕄))]
  iintro ⟨HB, HL0, HL1, HS, HV⟩
  isplitl [HB]; · iexact HB
  isplitl [HV]; · iexact HV
  isplitl [HL0]; · iexact HL0
  isplitl [HL1]; · iexact HL1
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.A2A

end
-- ==== Proof.KLaunch2.lean ====
/-
  The launch credit and the launch's small side conditions. Every device owes its partner a block's credit on the
  partner's receive cell and one unit on the partner's barrier; the partner map is an involution, so summed over the
  devices that owe, each device is dealt exactly the credit of its own two waits that others pay. The kernel's three own
  semaphores are scoped and distinct, and with no windowed array there is no share to state and no staging cell to wait on.
-/
import proofs.«900636_g7700000000000637_dist_a2a_v7x_xyz2x2x4_x_m8192_n1024_f32_1_alg».proof.Proof.KData
import Idealize.ShloMosaic.Lib.Pipeline.Launch
import Idealize.ShloMosaic.Lib.Pipeline.Kit

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the arrays' shares -/

theorem ownSemFacts : Pipeline.OwnSemFacts cfg0.spec osem := by decide

/-- There is no windowed array. -/
theorem share_eq (c : Dev nD) (w : Fin cfg0.W) : (dats m 0 c).share w = fullShare := w.elim0

/-! ## The launch credit -/

omit [FloatOps F] in
/-- What the launch deals device c for the two waits others pay: one unit on its barrier, a block's credit on its receive cell. -/
theorem creds (c : Dev nD) :
    (Pipeline.launchCred O₀ c : sProp 𝕄) ⊢ iprop(cred (tallyAt (barCell c) () 1) ∗ cred (tallyAt (recvCell c) () N)) := by
  refine (Entails.of_eq (Pipeline.launchCred_add O₁ (fun d => tallyAt (barCell (peer d)) () 1) c)).trans ?_
  refine sep_symm.trans (BI.sep_mono ?_ ?_)
  · exact Pipeline.launchCred_tallyAt (.reg barS) peer peer peer_peer peer_peer () 1 c
  · exact Pipeline.launchCred_tallyAt (.dma recvS.sem) peer peer peer_peer peer_peer () N c

/-! ## The pipeline's waits -/

/-- The pipeline stages nothing, so it has no cell to wait on. -/
theorem waits (c : Dev nD) : (levAts L lv : sProp 𝕄) ⊢ Pipeline.cellsWaits cfgs (dats m) () 0 c :=
  Pipeline.cellsWaits_intro cfgs (dats m) () 0 c fun w => w.elim0

end Cert.Kernel.A2A

end
-- ==== Proof.KRun.lean ====
/-
  The launch: every device's body proved, the cells funded and their invariants allocated for all devices at once, each
  device's argument and result entering the region whole and read back after it, the program runs from any memory with
  zero counters; and every final state has each device's argument unchanged and its result at the exchanged contents.
-/
import proofs.«900636_g7700000000000637_dist_a2a_v7x_xyz2x2x4_x_m8192_n1024_f32_1_alg».proof.Proof.KBody
import proofs.«900636_g7700000000000637_dist_a2a_v7x_xyz2x2x4_x_m8192_n1024_f32_1_alg».proof.Proof.KLaunch1
import proofs.«900636_g7700000000000637_dist_a2a_v7x_xyz2x2x4_x_m8192_n1024_f32_1_alg».proof.Proof.KLaunch2

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What leaves the region on device c: its argument as launched, its result exchanged. -/
def Yc (c : Dev nD) : sProp 𝕄 := iprop(argPts m c ∗ outPts c (outFinal m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Harg, Hout⟩, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    isplitl [Hlev]; · iexact Hlev
    isplitl [Harg]; · iexact Harg
    iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_eq]
  unfold Φ₁ Yc
  iintro ⟨Hv, HzL, HzS, HzV, Harg, Hout⟩
  isplitl [Harg Hout]
  · isplitl [Harg] <;> iassumption
  isplitl [HzL HzS HzV]
  · isplitl [HzL]; · iexact HzL
    isplitl [HzS] <;> iassumption
  iexact Hv

set_option maxRecDepth 8000 in
/-- At the compiled mesh of sixteen devices, for any float values, from any memory with zero counters: every weakly fair
    execution of @main terminates, nothing faulting, and every final state has each device's result at the exchanged
    contents and its argument as launched. -/
theorem run_main : θ_run defs (onTc (τ := τ) (main (F := F))) ⟨m, fun _ => 0, ρ⟩
    (fun r => ∀ c : Dev nD, r.2.mem ((c : Thread nD τ).loc main_v1) = outFinal m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_arg0) = xA m c ∧ s.mem ((c : Thread nD τ).loc main_v1) = outFinal m c)
    (hY := fun c s' => by
      unfold Yc
      iintro ⟨⟨Harg, Hout⟩, -, HSI⟩
      icombine HSI Harg gives %hx
      icombine HSI Hout gives %ho
      imodintro
      isplitr; · ipureintro; exact ⟨Buf.eq_of_forall_mem_univ hx, Buf.eq_of_forall_mem_univ ho⟩
      iexact HSI)
    (hQ := fun _ h c => ⟨(h c).2.2.2, (h c).2.2.1⟩)

/-- info: 'Cert.Kernel.A2A.run_main' depends on axioms: [propext, Classical.choice, Quot.sound] -/
#guard_msgs in #print axioms run_main

end Cert.Kernel.A2A

end
-- ==== Proof.OutBlock.lean ====
/-
  The exchange's final contents are the column block. With every device's argument block its row block of one 16384×2048
  array X (device c at x = c / 8 holds rows [8192·x, 8192·x + 8192)), the result the exchange leaves on device c is
  columns [1024·x, 1024·x + 1024) of X. The result's two row ranges are told apart by the row R of an index (R, j):
  for 8192·x ≤ R < 8192·x + 8192 the last write, through rows [8192·x, …) of the result, put there the element
  (R − 8192·x, 1024·x + j) of c's own block, which is X (R, 1024·x + j); every other row lies in the partner's range
  [8192·x', …), x' = 1 − x, where the last write misses and the earlier one put the element
  (R − 8192·x', (1024 − 1024·x') + j) of the partner's block, which is X (R, 1024·x + j) again. The two ranges cover
  all 16384 rows, so nothing of the launch contents is left.
-/
import proofs.«900636_g7700000000000637_dist_a2a_v7x_xyz2x2x4_x_m8192_n1024_f32_1_alg».proof.Proof.Basics
import Idealize.ShloMosaic.Lib.Layout

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Writes through an abstract view -/

section Abstract

variable {sg : RefSig} {κ : Kind} {sp : Space} {s : Shape} {e : EltTy} {Val : EltTy → Type}

/-- A write on every index leaves, at the element under index y, the payload's value at y; -/
theorem write_univ_at (v : View sg κ sp s e) (f : v.ty.Contents Val) (w : s.Idx → Val e)
    {i : v.ty.Idx} (y : s.Idx) (h : v.emb y = i) :
    v.write Val f w Finset.univ i = cast (congrArg Val v.elt_eq.symm) (w y) := by
  subst h; exact View.write_emb_of_mem f w (Finset.mem_univ y)

/-- off the view's elements it leaves the old contents. -/
theorem write_univ_off (v : View sg κ sp s e) (f : v.ty.Contents Val) (w : s.Idx → Val e)
    {i : v.ty.Idx} (h : i ∉ v.set) : v.write Val f w Finset.univ i = f i :=
  View.write_of_not_mem f w _ h

end Abstract

/-! ## Where the three windows put a block's index -/

theorem dstM_emb_val (c : Dev nD) (y : S8192x1024.Idx) (a : Fin 2) :
    (((dstM c).view.emb y a : Fin _) : Nat) = k0_off1 c a + (y a : Nat) := by
  show k0_off1 c a + 1 * (y a : Nat) = _; omega

theorem srcR_emb_val (c : Dev nD) (y : S8192x1024.Idx) (a : Fin 2) :
    (((srcR c).view.emb y a : Fin _) : Nat) = k0_off2 c a + (y a : Nat) := by
  show k0_off2 c a + 1 * (y a : Nat) = _; omega

theorem srcL_emb_val (c : Dev nD) (y : S8192x1024.Idx) (a : Fin 2) :
    (((srcL c).view.emb y a : Fin _) : Nat) = k0_off3 c a + (y a : Nat) := by
  show k0_off3 c a + 1 * (y a : Nat) = _; omega

/-! ## The mesh arithmetic -/

theorem meshLin_x (c : Dev nD) : Layout.meshLin [2, 2, 4] c.val [0] = c.val / 8 := by revert c; decide
theorem peer_div (c : Dev nD) : (peer c).val / 8 = 1 - c.val / 8 := by revert c; decide
theorem div_le_one (c : Dev nD) : c.val / 8 ≤ 1 := by revert c; decide

/-! ## The final result, element by element -/

/-- If every device's argument block is its row block of the whole array X, the final result of device c is its COLUMN block of X. -/
theorem outFinal_block (X : (⟨2, ![16384, 2048]⟩ : Shape).Idx → Elt F .f32)
    (hm : ∀ c : Dev nD, m ((c : Thread nD τ).loc main_arg0)
      = Layout.blockN ⟨2, ![8192, 2048]⟩ ⟨2, ![16384, 2048]⟩ (Layout.meshBlock [2, 2, 4] ![[0], []] c) X)
    (c : Dev nD) :
    outFinal m c = Layout.blockN ⟨2, ![16384, 1024]⟩ ⟨2, ![16384, 2048]⟩ (Layout.meshBlock [2, 2, 4] ![[], [0]] c) X := by
  funext i
  have hi0 : (i 0 : Nat) < 16384 := (i 0).isLt
  have hi1 : (i 1 : Nat) < 1024 := (i 1).isLt
  have hx := div_le_one c
  have hp := peer_div c
  have hl0 : ∀ n : Nat, Layout.meshLin [2, 2, 4] n [] = 0 := fun _ => rfl
  by_cases hrow : 8192 * (c.val / 8) ≤ (i 0 : Nat) ∧ (i 0 : Nat) < 8192 * (c.val / 8) + 8192
  · -- a row of c's own range: the copy through VMEM put it there
    obtain ⟨y, hy⟩ : ∃ y : S8192x1024.Idx, (dstM c).view.emb y = i :=
      View.exists_emb_of_mem_set _ (by
        rw [View.set_slice_whole, Rect.mem_set_unit, k0_off1_eq]
        refine Fin.forall_fin_two.mpr ⟨?_, ?_⟩
        · exact hrow
        · show 0 ≤ (i 1 : Nat) ∧ (i 1 : Nat) < 0 + 1024
          omega)
    have e0 : 8192 * (c.val / 8) + (y 0 : Nat) = (i 0 : Nat) := by
      have := dstM_emb_val c y 0; rw [hy, k0_off1_eq] at this; exact this.symm
    have e1 : 0 + (y 1 : Nat) = (i 1 : Nat) := by
      have := dstM_emb_val c y 1; rw [hy, k0_off1_eq] at this; exact this.symm
    refine (write_univ_at (dstM c).view _ _ y hy).trans ?_
    refine (cast_eq _ _).trans ?_
    refine (show View.read (Elt F) vM.view (vLanded m c) y
        = m ((c : Thread nD τ).loc main_arg0) ((srcL c).view.emb y) from rfl).trans ?_
    rw [hm c, Layout.blockN_apply, Layout.blockN_apply]
    refine congrArg X (funext fun a => Fin.ext ?_)
    revert a
    refine Fin.forall_fin_two.mpr ⟨?_, ?_⟩
    · show Layout.meshLin [2, 2, 4] c.val [0] * 8192 + (((srcL c).view.emb y 0 : Fin _) : Nat)
          = Layout.meshLin [2, 2, 4] c.val [] * 16384 + (i 0 : Nat)
      have s0 : (((srcL c).view.emb y 0 : Fin _) : Nat) = 0 + (y 0 : Nat) := by
        rw [srcL_emb_val, k0_off3_eq]; rfl
      rw [meshLin_x, hl0, s0]; omega
    · show Layout.meshLin [2, 2, 4] c.val [] * 2048 + (((srcL c).view.emb y 1 : Fin _) : Nat)
          = Layout.meshLin [2, 2, 4] c.val [0] * 1024 + (i 1 : Nat)
      have s1 : (((srcL c).view.emb y 1 : Fin _) : Nat) = 1024 * (c.val / 8) + (y 1 : Nat) := by
        rw [srcL_emb_val, k0_off3_eq]; rfl
      rw [meshLin_x, hl0, s1]; omega
  · -- a row of the partner's range: the partner's transfer put it there, and c's own copy left it alone
    have hrow' : 8192 * ((peer c).val / 8) ≤ (i 0 : Nat) ∧ (i 0 : Nat) < 8192 * ((peer c).val / 8) + 8192 := by
      omega
    have hoff : i ∉ (dstM c).view.set := by
      rw [View.set_slice_whole, Rect.mem_set_unit, k0_off1_eq]
      intro h; exact hrow (h 0)
    obtain ⟨y, hy⟩ : ∃ y : S8192x1024.Idx, (dstM (peer c)).view.emb y = i :=
      View.exists_emb_of_mem_set _ (by
        rw [View.set_slice_whole, Rect.mem_set_unit, k0_off1_eq]
        refine Fin.forall_fin_two.mpr ⟨?_, ?_⟩
        · exact hrow'
        · show 0 ≤ (i 1 : Nat) ∧ (i 1 : Nat) < 0 + 1024
          omega)
    have e0 : 8192 * ((peer c).val / 8) + (y 0 : Nat) = (i 0 : Nat) := by
      have := dstM_emb_val (peer c) y 0; rw [hy, k0_off1_eq] at this; exact this.symm
    have e1 : 0 + (y 1 : Nat) = (i 1 : Nat) := by
      have := dstM_emb_val (peer c) y 1; rw [hy, k0_off1_eq] at this; exact this.symm
    refine (write_univ_off (dstM c).view _ _ hoff).trans ?_
    refine (write_univ_at (dstM (peer c)).view _ _ y hy).trans ?_
    refine (cast_eq _ _).trans ?_
    refine (show View.read (Elt F) (srcR (peer c)).view (xA m (peer c)) y
        = m ((peer c : Thread nD τ).loc main_arg0) ((srcR (peer c)).view.emb y) from rfl).trans ?_
    rw [hm (peer c), Layout.blockN_apply, Layout.blockN_apply]
    refine congrArg X (funext fun a => Fin.ext ?_)
    revert a
    refine Fin.forall_fin_two.mpr ⟨?_, ?_⟩
    · show Layout.meshLin [2, 2, 4] (peer c).val [0] * 8192 + (((srcR (peer c)).view.emb y 0 : Fin _) : Nat)
          = Layout.meshLin [2, 2, 4] c.val [] * 16384 + (i 0 : Nat)
      have s0 : (((srcR (peer c)).view.emb y 0 : Fin _) : Nat) = 0 + (y 0 : Nat) := by
        rw [srcR_emb_val, k0_off2_eq]; rfl
      rw [meshLin_x, hl0, s0]; omega
    · show Layout.meshLin [2, 2, 4] (peer c).val [] * 2048 + (((srcR (peer c)).view.emb y 1 : Fin _) : Nat)
          = Layout.meshLin [2, 2, 4] c.val [0] * 1024 + (i 1 : Nat)
      have s1 : (((srcR (peer c)).view.emb y 1 : Fin _) : Nat)
          = (1024 - 1024 * ((peer c).val / 8)) + (y 1 : Nat) := by
        rw [srcR_emb_val, k0_off2_eq]; rfl
      rw [meshLin_x, hl0, s1]; omega

end Cert.KernelIdeal.A2A

end
-- ==== Proof.RefRun.lean ====
/-
  The reference program's run. The reference is the identity on one 16384×2048 array: its @main, on its one
  device, performs no operation and returns. So every weakly fair execution from a memory with zero counters
  terminates with the array's buffer holding what it held at launch: the run of the empty line of operations,
  whose fold over the launch contents is the launch contents.
-/
import proofs.«900636_g7700000000000637_dist_a2a_v7x_xyz2x2x4_x_m8192_n1024_f32_1_alg».proof.ReferenceIdeal
import proofs.«900636_g7700000000000637_dist_a2a_v7x_xyz2x2x4_x_m8192_n1024_f32_1_alg».proof.Proof.Gen.ReferenceIdeal
import Idealize.ShloMosaic.Lib.StableHlo.Run

noncomputable section

namespace Cert.ReferenceIdeal.Hand

open Cert.ReferenceIdeal Idealize.ShloMosaic Idealize.SL.Sem
open Cert.ReferenceIdeal.Gen Idealize.ShloMosaic.StableHlo

variable {F : FTy → Type} [FloatOps F]

/-- @main is the empty line of operations, on every device. -/
theorem main_eq (c : Dev nD) : main (F := F) c = seq [] := rfl

/-- The signature scopes no TensorCore buffer -/
theorem scopedRefs_eq : (Finset.univ.filter fun b : Ref sig .tc => b.isScoped) = ∅ := by decide
/-- and no semaphore (it has none). -/
theorem scopedSems_eq : (Finset.univ.filter fun sm : SemLoc sig => sm.isScoped .tc) = ∅ := by decide

/-- From any memory with zero counters, every weakly fair execution of the reference's @main terminates with
    the array unchanged: no operation writes it, and the fold of no operation over the launch contents is the
    launch contents. -/
theorem run (m' : (ℓ : Loc nD τ sig) → Buf (Elt F) ℓ) (ρ' : Dev nD → PrngReg) :
    θ_run (defs (F := F)) (onTc (τ := τ) (main (F := F))) ⟨m', fun _ => 0, ρ'⟩
      (fun r => ∀ c : Dev nD, r.2.mem ((c.tc : Thread nD τ).loc main_arg0) = m' ((c.tc : Thread nD τ).loc main_arg0)) :=
  (θ_run defs _ _).mono (fun _ h c => h c main_arg0)
    (run_seq scopedRefs_eq scopedSems_eq defs main (fun _ => []) main_eq (fun _ => trivial) m' ρ'
      (fun _ _ h => nomatch h))

end Cert.ReferenceIdeal.Hand

end
-- ==== Proof.lean ====
/-
  The claim: on the 2×2×4 mesh the exchange kernel — each device keeps its own columns of its row block and swaps the other
  columns with the device across the x axis — leaves every device holding its COLUMN block of the whole array, which is what
  the identity reference returns. Both printed instances of the kernel run to the end from any memory with zero counters
  (the launch over the per-device body, one run with the result named); the idealization rewrote nothing; and at the ideal
  instance the result of device c, read index by index through the two landings, is block x(c) of the columns of the array
  whose row blocks the devices were given.
-/
import proofs.«900636_g7700000000000637_dist_a2a_v7x_xyz2x2x4_x_m8192_n1024_f32_1_alg».proof.Defs
import proofs.«900636_g7700000000000637_dist_a2a_v7x_xyz2x2x4_x_m8192_n1024_f32_1_alg».proof.Proof.Gen.Kernel
import proofs.«900636_g7700000000000637_dist_a2a_v7x_xyz2x2x4_x_m8192_n1024_f32_1_alg».proof.Proof.Gen.KernelIdeal
import proofs.«900636_g7700000000000637_dist_a2a_v7x_xyz2x2x4_x_m8192_n1024_f32_1_alg».proof.Proof.Gen.ReferenceIdeal
import proofs.«900636_g7700000000000637_dist_a2a_v7x_xyz2x2x4_x_m8192_n1024_f32_1_alg».proof.Proof.Gen.Pre_finite_inputs_Kernel
import proofs.«900636_g7700000000000637_dist_a2a_v7x_xyz2x2x4_x_m8192_n1024_f32_1_alg».proof.Proof.Gen.Pre_finite_inputs_ReferenceIdeal
import proofs.«900636_g7700000000000637_dist_a2a_v7x_xyz2x2x4_x_m8192_n1024_f32_1_alg».proof.Proof.Run
import proofs.«900636_g7700000000000637_dist_a2a_v7x_xyz2x2x4_x_m8192_n1024_f32_1_alg».proof.Proof.KRun
import proofs.«900636_g7700000000000637_dist_a2a_v7x_xyz2x2x4_x_m8192_n1024_f32_1_alg».proof.Proof.OutBlock
import proofs.«900636_g7700000000000637_dist_a2a_v7x_xyz2x2x4_x_m8192_n1024_f32_1_alg».proof.Proof.RefRun

noncomputable section

namespace Cert.Proof

open Idealize.ShloMosaic Idealize.SL.Sem

/-- The word-level kernel runs and leaves its argument blocks unchanged: its run with the result dropped. -/
theorem frame_k : Cert.frame_Kernel := fun m ρ _ =>
  (θ_run Cert.Kernel.defs _ _).mono (fun _ h c => (h c).2) (Cert.Kernel.A2A.run_main (F := Bits) m ρ)

/-- The same of the idealized kernel. -/
theorem frame_ki : Cert.frame_KernelIdeal := fun m ρ _ =>
  (θ_run Cert.KernelIdeal.defs _ _).mono (fun _ h c => (h c).2) (Cert.KernelIdeal.A2A.run_main (F := Ideal) m ρ)

/-- The reference performs no operation. -/
theorem frame_ri : Cert.frame_ReferenceIdeal := fun m ρ _ => Cert.ReferenceIdeal.Hand.run (F := Ideal) m ρ

/-- The ideal pass rewrote nothing. -/
theorem preserves : Cert.preserves_Kernel_KernelIdeal := trivial

/-- The reference returns its array; device c's result is its column block of that array, because its argument — and its
    partner's — are row blocks of it. -/
theorem algebraic : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · refine (θ_run Cert.KernelIdeal.defs _ _).mono (fun _ h c => ⟨(h c).1.trans ?_, (h c).2⟩) (Cert.KernelIdeal.A2A.run_main (F := Ideal) m ρ)
    exact Cert.KernelIdeal.A2A.outFinal_block m _ hagree c
  · exact (θ_run Cert.ReferenceIdeal.defs _ _).mono (fun _ h => ⟨h 0, h 0⟩) (Cert.ReferenceIdeal.Hand.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
